-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x128 : Shape := ⟨3, ![4, 512, 128]⟩
abbrev S512x128 : Shape := ⟨2, ![512, 128]⟩
abbrev S_ : Shape := ⟨0, ![]⟩
abbrev S4x512 : Shape := ⟨2, ![4, 512]⟩
abbrev S512 : Shape := ⟨1, ![512]⟩

class Facts : Prop where
  bcast_S_S4x512x128 : S_.BroadcastsInDim S4x512x128 (![] : Fin 0 → Fin S4x512x128.rank)
  reducesTo_S4x512x128_S_d0_1_2 : S4x512x128.ReducesTo [0, 1, 2] S_
  h_S_ : 0 < S_.numel
  bcast_S_S512x128 : S_.BroadcastsInDim S512x128 (![] : Fin 0 → Fin S512x128.rank)
  reducesTo_S512x128_S_d0_1 : S512x128.ReducesTo [0, 1] S_
  reducesTo_S4x512x128_S4x512_d2 : S4x512x128.ReducesTo [2] S4x512
  bcast_S_S4x512 : S_.BroadcastsInDim S4x512 (![] : Fin 0 → Fin S4x512.rank)
  reducesTo_S4x512_S_d0_1 : S4x512.ReducesTo [0, 1] S_
  reducesTo_S512x128_S512_d1 : S512x128.ReducesTo [1] S512
  bcast_S_S512 : S_.BroadcastsInDim S512 (![] : Fin 0 → Fin S512.rank)
  reducesTo_S512_S_d0 : S512.ReducesTo [0] S_

variable [Facts]

def fn_part1 {F : FTy → Type} [FloatOps F] (main_v14 : IVec S_ 1) (main_v15 : FVec F S512x128 .f32) (main_cst_5 : FVec F S_ .f32) : IVec S_ 1 :=
  let main_v16 : FVec F S512 .f32 := (fun x v => Host.reduceAdd x v reducesTo_S512x128_S512_d1 h_S_) main_v15 main_cst_5
  let main_cst_6 : FVec F S_ .f32 := constant S_ .f32 0x00000000#32
  let main_v17 : FVec F S512 .f32 := broadcastInDim S512 ![] bcast_S_S512 main_cst_6
  let main_v18 : IVec S512 1 := cmpf .ogt main_v16 main_v17
  let main_c_7 : IVec S_ 1 := constantI S_ 1 1#1
  let main_v19 : IVec S_ 1 := (fun x v => Host.reduce IntOp.andi x v reducesTo_S512_S_d0 h_S_) main_v18 main_c_7
  let main_v20 : IVec S_ 1 := andi main_v14 main_v19
  main_v20

def fn {F : FTy → Type} [FloatOps F] (main_arg0 : FVec F S4x512x128 .f32) (main_arg1 : FVec F S512x128 .f32) : IVec S_ 1 :=
  let main_v0 : FVec F S4x512x128 .f32 := Host.absf main_arg0
  let main_cst : FVec F S_ .f32 := constant S_ .f32 0x7F800000#32
  let main_v1 : FVec F S4x512x128 .f32 := broadcastInDim S4x512x128 ![] bcast_S_S4x512x128 main_cst
  let main_v2 : IVec S4x512x128 1 := cmpf .olt main_v0 main_v1
  let main_c : IVec S_ 1 := constantI S_ 1 1#1
  let main_v3 : IVec S_ 1 := (fun x v => Host.reduce IntOp.andi x v reducesTo_S4x512x128_S_d0_1_2 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S4x512x128 .f32 := mulf main_arg0 main_arg0
  let main_cst_2 : FVec F S_ .f32 := constant S_ .f32 0x00000000#32
  let main_v10 : FVec F S4x512 .f32 := (fun x v => Host.reduceAdd x v reducesTo_S4x512x128_S4x512_d2 h_S_) main_v9 main_cst_2
  let main_cst_3 : FVec F S_ .f32 := constant S_ .f32 0x00000000#32
  let main_v11 : FVec F S4x512 .f32 := broadcastInDim S4x512 ![] bcast_S_S4x512 main_cst_3
  let main_v12 : IVec S4x512 1 := cmpf .ogt main_v10 main_v11
  let main_c_4 : IVec S_ 1 := constantI S_ 1 1#1
  let main_v13 : IVec S_ 1 := (fun x v => Host.reduce IntOp.andi x v reducesTo_S4x512_S_d0_1 h_S_) main_v12 main_c_4
  let main_v14 : IVec S_ 1 := andi main_v8 main_v13
  let main_v15 : FVec F S512x128 .f32 := mulf main_arg1 main_arg1
  let main_cst_5 : FVec F S_ .f32 := constant S_ .f32 0x00000000#32
  fn_part1 (F := F) main_v14 main_v15 main_cst_5
-- ==== Kernel.lean ====
abbrev S4x512x128 : Shape := ⟨3, ![4, 512, 128]⟩
abbrev S512x128 : Shape := ⟨2, ![512, 128]⟩
abbrev S4x512x512 : Shape := ⟨3, ![4, 512, 512]⟩
abbrev S1x128x128 : Shape := ⟨3, ![1, 128, 128]⟩
abbrev S128x128 : Shape := ⟨2, ![128, 128]⟩
abbrev S128 : Shape := ⟨1, ![128]⟩
abbrev S128x1 : Shape := ⟨2, ![128, 1]⟩
abbrev S128x1x128 : Shape := ⟨3, ![128, 1, 128]⟩
abbrev S128x128x128 : Shape := ⟨3, ![128, 128, 128]⟩
abbrev S4x512x512x1 : Shape := ⟨4, ![4, 512, 512, 1]⟩
abbrev S4x512x512x3 : Shape := ⟨4, ![4, 512, 512, 3]⟩

abbrev nBuf : Space → Nat
  | .hbm => 9
  | .vmem => 10
  | .smem => 0
  | _ => 0

abbrev bufTy : (tb : Table) → Fin (tcTables nBuf tb) → BufTy
  | .hbm, ⟨0, _⟩ => ⟨S4x512x128, .f32⟩
  | .hbm, ⟨1, _⟩ => ⟨S512x128, .f32⟩
  | .hbm, ⟨2, _⟩ => ⟨S4x512x512, .f32⟩
  | .hbm, ⟨3, _⟩ => ⟨S4x512x512, .f32⟩
  | .hbm, ⟨4, _⟩ => ⟨S4x512x512, .f32⟩
  | .hbm, ⟨5, _⟩ => ⟨S4x512x512x1, .f32⟩
  | .hbm, ⟨6, _⟩ => ⟨S4x512x512x1, .f32⟩
  | .hbm, ⟨7, _⟩ => ⟨S4x512x512x1, .f32⟩
  | .hbm, ⟨8, _⟩ => ⟨S4x512x512x3, .f32⟩
  | .local _ .vmem, ⟨0, _⟩ => ⟨S1x128x128, .f32⟩
  | .local _ .vmem, ⟨1, _⟩ => ⟨S1x128x128, .f32⟩
  | .local _ .vmem, ⟨2, _⟩ => ⟨S128x128, .f32⟩
  | .local _ .vmem, ⟨3, _⟩ => ⟨S128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | _, _ => ⟨S4x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S128x128_S128x128_0_0 : ∀ a, (![0, 0] : Fin 2 → Nat) a + S128x128.size a ≤ S128x128.size a
  h_S128x128 : 0 < S128x128.numel
  reduces_S128x128_S128 : S128x128.Reduces [1] S128
  shapeCasts_S128_S128x1 : S128.ShapeCasts S128x1
  broadcasts_S128x1_S128x128 : S128x1.Broadcasts S128x128
  transposes_S128x128_p1_0_S128x128 : S128x128.Transposes [1, 0] S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  bcast_S4x512x512_S4x512x512x1_0_1_2 : S4x512x512.BroadcastsInDim S4x512x512x1 (![0, 1, 2] : Fin 3 → Fin S4x512x512x1.rank)
  concatenates_S4x512x512x1_S4x512x512x1_S4x512x512x1_S4x512x512x3_d3 : Shape.Concatenates [S4x512x512x1, S4x512x512x1, S4x512x512x1] S4x512x512x3 3
  dot_S128x128_S128x128_S128x128_1_0_0_1_n_n_wf : DotDims.WF S128x128 S128x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x128.size a ≤ S4x512x128.size a
  hwx0_0 : ∀ i : grid0.Coords, EltTy.bits .f32 = 32 ∨ (Rect.block (s := S4x512x128) S1x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x128.size a
  hwx0_1 : ∀ i : grid0.Coords, EltTy.bits .f32 = 32 ∨ (Rect.block (s := S512x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x128.size a ≤ S4x512x512.size a
  hwx0_2 : ∀ i : grid0.Coords, EltTy.bits .f32 = 32 ∨ (Rect.block (s := S4x512x512) S1x128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S4x512x512.size a
  hwx0_3 : ∀ i : grid0.Coords, EltTy.bits .f32 = 32 ∨ (Rect.block (s := S4x512x512) S1x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x128.size a ≤ S4x512x512.size a
  hwx0_4 : ∀ i : grid0.Coords, EltTy.bits .f32 = 32 ∨ (Rect.block (s := S4x512x512) S1x128x128.size (cc0_transform_4 i) (hinb0_4 i)).WholeWords (EltTy.packing .f32)

variable [Facts₀]

def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf

abbrev win0_0 : Pipeline.Window sig grid0 :=
  Pipeline.Window.ofSpec (Memref.whole main_arg0) S1x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x128x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x128x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x128x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x512x128 : Shape := ⟨3, ![4, 512, 128]⟩
abbrev S512x128 : Shape := ⟨2, ![512, 128]⟩
abbrev S_ : Shape := ⟨0, ![]⟩
abbrev S4x512 : Shape := ⟨2, ![4, 512]⟩
abbrev S4x512x1 : Shape := ⟨3, ![4, 512, 1]⟩
abbrev S512 : Shape := ⟨1, ![512]⟩
abbrev S512x1 : Shape := ⟨2, ![512, 1]⟩
abbrev S4x512x512 : Shape := ⟨3, ![4, 512, 512]⟩
abbrev S4x512x1x128 : Shape := ⟨4, ![4, 512, 1, 128]⟩
abbrev S1x1x512x128 : Shape := ⟨4, ![1, 1, 512, 128]⟩
abbrev S4x512x512x128 : Shape := ⟨4, ![4, 512, 512, 128]⟩
abbrev S4x512x512x1 : Shape := ⟨4, ![4, 512, 512, 1]⟩
abbrev S4x512x512x3 : Shape := ⟨4, ![4, 512, 512, 3]⟩

abbrev nBuf : Space → Nat
  | .hbm => 33
  | .vmem => 0
  | .smem => 0
  | _ => 0

abbrev bufTy : (tb : Table) → Fin (tcTables nBuf tb) → BufTy
  | .hbm, ⟨0, _⟩ => ⟨S4x512x128, .f32⟩
  | .hbm, ⟨1, _⟩ => ⟨S512x128, .f32⟩
  | .hbm, ⟨2, _⟩ => ⟨S4x512x128, .f32⟩
  | .hbm, ⟨3, _⟩ => ⟨S_, .f32⟩
  | .hbm, ⟨4, _⟩ => ⟨S4x512, .f32⟩
  | .hbm, ⟨5, _⟩ => ⟨S4x512x1, .f32⟩
  | .hbm, ⟨6, _⟩ => ⟨S4x512x1, .f32⟩
  | .hbm, ⟨7, _⟩ => ⟨S4x512x128, .f32⟩
  | .hbm, ⟨8, _⟩ => ⟨S4x512x128, .f32⟩
  | .hbm, ⟨9, _⟩ => ⟨S512x128, .f32⟩
  | .hbm, ⟨10, _⟩ => ⟨S_, .f32⟩
  | .hbm, ⟨11, _⟩ => ⟨S512, .f32⟩
  | .hbm, ⟨12, _⟩ => ⟨S512x1, .f32⟩
  | .hbm, ⟨13, _⟩ => ⟨S512x1, .f32⟩
  | .hbm, ⟨14, _⟩ => ⟨S512x128, .f32⟩
  | .hbm, ⟨15, _⟩ => ⟨S512x128, .f32⟩
  | .hbm, ⟨16, _⟩ => ⟨S4x512x512, .f32⟩
  | .hbm, ⟨17, _⟩ => ⟨S4x512x1x128, .f32⟩
  | .hbm, ⟨18, _⟩ => ⟨S1x1x512x128, .f32⟩
  | .hbm, ⟨19, _⟩ => ⟨S4x512x512x128, .f32⟩
  | .hbm, ⟨20, _⟩ => ⟨S4x512x512x128, .f32⟩
  | .hbm, ⟨21, _⟩ => ⟨S4x512x512x128, .f32⟩
  | .hbm, ⟨22, _⟩ => ⟨S4x512x512x128, .f32⟩
  | .hbm, ⟨23, _⟩ => ⟨S_, .f32⟩
  | .hbm, ⟨24, _⟩ => ⟨S4x512x512, .f32⟩
  | .hbm, ⟨25, _⟩ => ⟨S4x512x512x128, .f32⟩
  | .hbm, ⟨26, _⟩ => ⟨S_, .f32⟩
  | .hbm, ⟨27, _⟩ => ⟨S4x512x512, .f32⟩
  | .hbm, ⟨28, _⟩ => ⟨S4x512x512, .f32⟩
  | .hbm, ⟨29, _⟩ => ⟨S4x512x512x1, .f32⟩
  | .hbm, ⟨30, _⟩ => ⟨S4x512x512x1, .f32⟩
  | .hbm, ⟨31, _⟩ => ⟨S4x512x512x1, .f32⟩
  | .hbm, ⟨32, _⟩ => ⟨S4x512x512x3, .f32⟩
  | _, _ => ⟨S4x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_call1_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  reducesTo_S4x512x128_S4x512_d2 : S4x512x128.ReducesTo [2] S4x512
  h_S_ : 0 < S_.numel
  bcast_S4x512_S4x512x1_0_1 : S4x512.BroadcastsInDim S4x512x1 (![0, 1] : Fin 2 → Fin S4x512x1.rank)
  bcast_S4x512x1_S4x512x128_0_1_2 : S4x512x1.BroadcastsInDim S4x512x128 (![0, 1, 2] : Fin 3 → Fin S4x512x128.rank)
  reducesTo_S512x128_S512_d1 : S512x128.ReducesTo [1] S512
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S4x512x128_S4x512x1x128_0_1_3 : S4x512x128.BroadcastsInDim S4x512x1x128 (![0, 1, 3] : Fin 3 → Fin S4x512x1x128.rank)
  bcast_S512x128_S1x1x512x128_2_3 : S512x128.BroadcastsInDim S1x1x512x128 (![2, 3] : Fin 2 → Fin S1x1x512x128.rank)
  bcast_S4x512x1x128_S4x512x512x128_0_1_2_3 : S4x512x1x128.BroadcastsInDim S4x512x512x128 (![0, 1, 2, 3] : Fin 4 → Fin S4x512x512x128.rank)
  bcast_S1x1x512x128_S4x512x512x128_0_1_2_3 : S1x1x512x128.BroadcastsInDim S4x512x512x128 (![0, 1, 2, 3] : Fin 4 → Fin S4x512x512x128.rank)
  reducesTo_S4x512x512x128_S4x512x512_d3 : S4x512x512x128.ReducesTo [3] S4x512x512
  bcast_S4x512x512_S4x512x512x1_0_1_2 : S4x512x512.BroadcastsInDim S4x512x512x1 (![0, 1, 2] : Fin 3 → Fin S4x512x512x1.rank)
  concatenates_S4x512x512x1_S4x512x512x1_S4x512x512x1_S4x512x512x3_d3 : Shape.Concatenates [S4x512x512x1, S4x512x512x1, S4x512x512x1] S4x512x512x3 3
  dot_S4x512x128_S512x128_S4x512x512_2_1_01_0_n_n_wf : DotDims.WF S4x512x128 S512x128 S4x512x512 [2] [1] [0, 1] [0] [] []

variable [Facts₀]

def dot_S4x512x128_S512x128_S4x512x512_2_1_01_0_n_n : DotDims S4x512x128 S512x128 S4x512x512 where
  lhsContracting := [2]
  rhsContracting := [1]
  lhsNonContracting := [0, 1]
  rhsNonContracting := [0]
  lhsBatch := []
  rhsBatch := []
  wf := dot_S4x512x128_S512x128_S4x512x512_2_1_01_0_n_n_wf

class Facts : Prop extends Facts₀ where

variable [Facts]
-- ==== Proof.KernelFrame.lean ====
/-
  The frame of `Kernel`: its one region runs at each of the 64 grid points, the four host lines that follow it run, nothing
  faults, and the two argument arrays end as they were launched.

  The body at a grid point reads its two input blocks (a `[1, 128, 128]` block of the queries and a `[128, 128]` block of
  the reference set), and stores one whole `[1, 128, 128]` block into each of its three output buffers; the three loads it
  makes of those output buffers before storing are of values it never uses. So after the body each output buffer holds
  one piece covering it, a pure function of the two input blocks, and the input buffers hold what they held. The region's
  launch, the staging of the blocks and their write-back are the pipeline library's; the lines after the region (three
  insertions of a unit axis and the concatenation of the three results along it) read the region's result arrays and write
  only fresh buffers of their own, so the argument arrays are untouched by them too.
-/
import proofs.«134703_j11759620456454_1_alg».proof.Proof.Gen.Kernel.Launch
import proofs.«134703_j11759620456454_1_alg».proof.Proof.Gen.Kernel.Skeleton
import proofs.«134703_j11759620456454_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents, no host line coming before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The lines after the region allocate nothing. -/
theorem hostOps1_fresh : (hostOps1 : List (HloOp τ sig (Elt F))).Forall fun op => op.fresh = ∅ := by
  simp only [List.Forall]; repeat' constructor

/-- @main is the region continued by the four host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The lines after the region touch the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write none of the region's five arrays: each writes its own result buffer, which is none of them. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.unary_writes, StableHlo.nary_writes, Finset.mem_singleton] <;> exact StableHlo.devRef_ne_of_ne (by decide)

/-- Nothing runs before the region: it finds the queries as launched. -/
theorem V_main_arg0 (c : Dev nD) : V m c main_arg0 = m ((c : Thread nD τ).loc main_arg0) := rfl
/-- And the reference set as launched. -/
theorem V_main_arg1 (c : Dev nD) : V m c main_arg1 = m ((c : Thread nD τ).loc main_arg1) := rfl

/-- No line after the region writes the queries: they end as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = (dats 0 c).arrAt 0 cfg0.N := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.nary_writes, Finset.mem_singleton]
      repeat' apply And.intro
      all_goals exact StableHlo.devRef_ne_of_ne (by decide)))]
  exact Pipeline.withArrays_arr spec0 launch0.win.arr_inj c _ _ 0

/-- No line after the region writes the reference set: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = (dats 0 c).arrAt 1 cfg0.N := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.nary_writes, Finset.mem_singleton]
      repeat' apply And.intro
      all_goals exact StableHlo.devRef_ne_of_ne (by decide)))]
  exact Pipeline.withArrays_arr spec0 launch0.win.arr_inj c _ _ 1

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The reference-set window's likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev r3 : Rect S1x128x128 := Rect.unit (s := S1x128x128) ![0, 0, 0] S1x128x128.size inb_S1x128x128_S1x128x128_0_0_0
abbrev r2 : Rect S128x128 := Rect.unit (s := S128x128) ![0, 0] S128x128.size inb_S128x128_S128x128_0_0

/-- The cosine buffer after the body: one piece covering it, the cosine payload of the two input blocks. -/
def out0_2 (x0 : Vec F S1x128x128 .f32) (x1 : Vec F S128x128 .f32) : Vec F S1x128x128 .f32 :=
  View.canon [⟨r3, k0_pay3 (View.ld x0 r3) (View.ld x1 r2)⟩]
/-- The L1 buffer after the body. -/
def out0_3 (x0 : Vec F S1x128x128 .f32) (x1 : Vec F S128x128 .f32) : Vec F S1x128x128 .f32 :=
  View.canon [⟨r3, k0_pay4 (View.ld x0 r3) (View.ld x1 r2)⟩]
/-- The L2 buffer after the body. -/
def out0_4 (x0 : Vec F S1x128x128 .f32) (x1 : Vec F S128x128 .f32) : Vec F S1x128x128 .f32 :=
  View.canon [⟨r3, k0_pay5 (View.ld x0 r3) (View.ld x1 r2)⟩]

/-- One store of the whole block covers the buffer. -/
theorem cover3 (p0 : Vec F S1x128x128 .f32) (y : S1x128x128.Idx) :
    ∃ pc ∈ ([⟨r3, p0⟩] : List (View.Piece (Elt F) S1x128x128 .f32)), y ∈ pc.1.set :=
  View.cover_of_tiled [⟨r3, p0⟩] S1x128x128.size (by rfl) y

/-! ## The body's triple -/

set_option maxHeartbeats 1000000 in
/-- The body on whole staging memrefs, the inputs' at contents `x0`, `x1` and the outputs' at anything, runs to the
    continuation holding the inputs' as they were and each output's at its one covering piece. -/
theorem sound_kernel (c : Dev nD) (E : Set ℕ) (i : grid0.Coords)
    (arg3 : Memref sig .tc .vmem S1x128x128 .f32) (harg3 : arg3.IsWhole) (arg4 : Memref sig .tc .vmem S128x128 .f32) (harg4 : arg4.IsWhole)
    (arg5 : Memref sig .tc .vmem S1x128x128 .f32) (harg5 : arg5.IsWhole) (arg6 : Memref sig .tc .vmem S1x128x128 .f32) (harg6 : arg6.IsWhole)
    (arg7 : Memref sig .tc .vmem S1x128x128 .f32) (harg7 : arg7.IsWhole)
    (x0 : Vec F S1x128x128 .f32) (x1 : Vec F S128x128 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1
            ∗ owns (c : Thread nD τ) arg5 fullShare (out0_2 x0 x1) ∗ owns (c : Thread nD τ) arg6 fullShare (out0_3 x0 x1)
            ∗ owns (c : Thread nD τ) arg7 fullShare (out0_4 x0 x1)) -∗ K ⟨⟩))
      ⊢ wp frame (wpE (defs₀ (F := F)) Variants.none c none) E (cc0__dist_kernel i arg3 harg3 arg4 harg4 arg5 harg5 arg6 harg6 arg7 harg7) K := by
  -- the printed body is its skeleton: five loads and three stores over the named payloads
  simp only [cc0__dist_kernel_eq_skeleton]; unfold cc0__dist_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0
  subst hf1
  sl_exec
  sl_step
  iapply Hk
  -- the inputs were only read
  isplitl [H0]
  · iexists f0; isplitr; · ipureintro; rfl
    iexact H0
  isplitl [H1]
  · iexists f1; isplitr; · ipureintro; rfl
    iexact H1
  -- each output was overwritten whole by one piece, so what it held before (and the load of it) does not matter
  isplitl [H2]
  · iexists _; isplitr
    swap; · iexact H2
    ipureintro
    exact View.read_writes_eq_canon _ _ _ (cover3 _)
  isplitl [H3]
  · iexists _; isplitr
    swap; · iexact H3
    ipureintro
    exact View.read_writes_eq_canon _ _ _ (cover3 _)
  iexists _; isplitr
  swap; · iexact H4
  ipureintro
  exact View.read_writes_eq_canon _ _ _ (cover3 _)

/-! ## The pipeline's proof data -/

/-- The proof data of the one pipeline on core `c`: the arrays as the region finds them; after the body at point `t` each
    input's buffer at its block and each output's at its piece of the two input blocks; the class's invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
    | ⟨4, _⟩ => out0_4 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]
theorem after0_4 (c : Dev nD) (t : Fin cfg0.N) : (dats m 0 c).after 4 t = out0_4 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  -- the two input buffers hold their blocks at this point
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  -- the outputs' buffers hold whatever the pipeline left in them
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: every weakly fair execution of @main terminates with the two argument arrays as launched. Each is the array
    of an input window (windows 0 and 1), which the pipeline never writes back, so at the end it holds what it held when the
    region was entered; and nothing runs before the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.Kernel.Hand

end
-- ==== Proof.KernelIdealFrame.lean ====
/-
  The frame of `KernelIdeal`: its one region runs at each of the 64 grid points, the four host lines that follow it run, nothing
  faults, and the two argument arrays end as they were launched.

  The body at a grid point reads its two input blocks (a `[1, 128, 128]` block of the queries and a `[128, 128]` block of
  the reference set), and stores one whole `[1, 128, 128]` block into each of its three output buffers; the three loads it
  makes of those output buffers before storing are of values it never uses. So after the body each output buffer holds
  one piece covering it, a pure function of the two input blocks, and the input buffers hold what they held. The region's
  launch, the staging of the blocks and their write-back are the pipeline library's; the lines after the region (three
  insertions of a unit axis and the concatenation of the three results along it) read the region's result arrays and write
  only fresh buffers of their own, so the argument arrays are untouched by them too.
-/
import proofs.«134703_j11759620456454_1_alg».proof.Proof.Gen.KernelIdeal.Launch
import proofs.«134703_j11759620456454_1_alg».proof.Proof.Gen.KernelIdeal.Skeleton
import proofs.«134703_j11759620456454_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch contents, no host line coming before it. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The lines after the region allocate nothing. -/
theorem hostOps1_fresh : (hostOps1 : List (HloOp τ sig (Elt F))).Forall fun op => op.fresh = ∅ := by
  simp only [List.Forall]; repeat' constructor

/-- @main is the region continued by the four host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The lines after the region touch the region's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write none of the region's five arrays: each writes its own result buffer, which is none of them. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.unary_writes, StableHlo.nary_writes, Finset.mem_singleton] <;> exact StableHlo.devRef_ne_of_ne (by decide)

/-- Nothing runs before the region: it finds the queries as launched. -/
theorem V_main_arg0 (c : Dev nD) : V m c main_arg0 = m ((c : Thread nD τ).loc main_arg0) := rfl
/-- And the reference set as launched. -/
theorem V_main_arg1 (c : Dev nD) : V m c main_arg1 = m ((c : Thread nD τ).loc main_arg1) := rfl

/-- No line after the region writes the queries: they end as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = (dats 0 c).arrAt 0 cfg0.N := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.nary_writes, Finset.mem_singleton]
      repeat' apply And.intro
      all_goals exact StableHlo.devRef_ne_of_ne (by decide)))]
  exact Pipeline.withArrays_arr spec0 launch0.win.arr_inj c _ _ 0

/-- No line after the region writes the reference set: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = (dats 0 c).arrAt 1 cfg0.N := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.nary_writes, Finset.mem_singleton]
      repeat' apply And.intro
      all_goals exact StableHlo.devRef_ne_of_ne (by decide)))]
  exact Pipeline.withArrays_arr spec0 launch0.win.arr_inj c _ _ 1

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The reference-set window's likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves -/

abbrev r3 : Rect S1x128x128 := Rect.unit (s := S1x128x128) ![0, 0, 0] S1x128x128.size inb_S1x128x128_S1x128x128_0_0_0
abbrev r2 : Rect S128x128 := Rect.unit (s := S128x128) ![0, 0] S128x128.size inb_S128x128_S128x128_0_0

/-- The cosine buffer after the body: one piece covering it, the cosine payload of the two input blocks. -/
def out0_2 (x0 : Vec F S1x128x128 .f32) (x1 : Vec F S128x128 .f32) : Vec F S1x128x128 .f32 :=
  View.canon [⟨r3, k0_pay3 (View.ld x0 r3) (View.ld x1 r2)⟩]
/-- The L1 buffer after the body. -/
def out0_3 (x0 : Vec F S1x128x128 .f32) (x1 : Vec F S128x128 .f32) : Vec F S1x128x128 .f32 :=
  View.canon [⟨r3, k0_pay4 (View.ld x0 r3) (View.ld x1 r2)⟩]
/-- The L2 buffer after the body. -/
def out0_4 (x0 : Vec F S1x128x128 .f32) (x1 : Vec F S128x128 .f32) : Vec F S1x128x128 .f32 :=
  View.canon [⟨r3, k0_pay5 (View.ld x0 r3) (View.ld x1 r2)⟩]

/-- One store of the whole block covers the buffer. -/
theorem cover3 (p0 : Vec F S1x128x128 .f32) (y : S1x128x128.Idx) :
    ∃ pc ∈ ([⟨r3, p0⟩] : List (View.Piece (Elt F) S1x128x128 .f32)), y ∈ pc.1.set :=
  View.cover_of_tiled [⟨r3, p0⟩] S1x128x128.size (by rfl) y

/-! ## The body's triple -/

set_option maxHeartbeats 1000000 in
/-- The body on whole staging memrefs, the inputs' at contents `x0`, `x1` and the outputs' at anything, runs to the
    continuation holding the inputs' as they were and each output's at its one covering piece. -/
theorem sound_kernel (c : Dev nD) (E : Set ℕ) (i : grid0.Coords)
    (arg3 : Memref sig .tc .vmem S1x128x128 .f32) (harg3 : arg3.IsWhole) (arg4 : Memref sig .tc .vmem S128x128 .f32) (harg4 : arg4.IsWhole)
    (arg5 : Memref sig .tc .vmem S1x128x128 .f32) (harg5 : arg5.IsWhole) (arg6 : Memref sig .tc .vmem S1x128x128 .f32) (harg6 : arg6.IsWhole)
    (arg7 : Memref sig .tc .vmem S1x128x128 .f32) (harg7 : arg7.IsWhole)
    (x0 : Vec F S1x128x128 .f32) (x1 : Vec F S128x128 .f32) (K : PUnit → sProp 𝕄) :
    iprop(owns (c : Thread nD τ) arg3 fullShare x0 ∗ owns (c : Thread nD τ) arg4 fullShare x1
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg3 fullShare x0 ∗ owns (c : Thread nD τ) arg4 fullShare x1
            ∗ owns (c : Thread nD τ) arg5 fullShare (out0_2 x0 x1) ∗ owns (c : Thread nD τ) arg6 fullShare (out0_3 x0 x1)
            ∗ owns (c : Thread nD τ) arg7 fullShare (out0_4 x0 x1)) -∗ K ⟨⟩))
      ⊢ wp frame (wpE (defs₀ (F := F)) Variants.none c none) E (cc0__dist_kernel i arg3 harg3 arg4 harg4 arg5 harg5 arg6 harg6 arg7 harg7) K := by
  -- the printed body is its skeleton: five loads and three stores over the named payloads
  simp only [cc0__dist_kernel_eq_skeleton]; unfold cc0__dist_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0
  subst hf1
  sl_exec
  sl_step
  iapply Hk
  -- the inputs were only read
  isplitl [H0]
  · iexists f0; isplitr; · ipureintro; rfl
    iexact H0
  isplitl [H1]
  · iexists f1; isplitr; · ipureintro; rfl
    iexact H1
  -- each output was overwritten whole by one piece, so what it held before (and the load of it) does not matter
  isplitl [H2]
  · iexists _; isplitr
    swap; · iexact H2
    ipureintro
    exact View.read_writes_eq_canon _ _ _ (cover3 _)
  isplitl [H3]
  · iexists _; isplitr
    swap; · iexact H3
    ipureintro
    exact View.read_writes_eq_canon _ _ _ (cover3 _)
  iexists _; isplitr
  swap; · iexact H4
  ipureintro
  exact View.read_writes_eq_canon _ _ _ (cover3 _)

/-! ## The pipeline's proof data -/

/-- The proof data of the one pipeline on core `c`: the arrays as the region finds them; after the body at point `t` each
    input's buffer at its block and each output's at its piece of the two input blocks; the class's invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
    | ⟨3, _⟩ => out0_3 (iblk m c 0 t) (iblk m c 1 t)
    | ⟨4, _⟩ => out0_4 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]
theorem after0_3 (c : Dev nD) (t : Fin cfg0.N) : (dats m 0 c).after 3 t = out0_3 (iblk m c 0 t) (iblk m c 1 t) := by dsimp only [dats]
theorem after0_4 (c : Dev nD) (t : Fin cfg0.N) : (dats m 0 c).after 4 t = out0_4 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' memrefs hold their blocks, so the body's triple applies; the invariant and the
    core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  -- the two input buffers hold their blocks at this point
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) _)
  isplitl [H0]; · iexact H0
  isplitl [H1]; · iexact H1
  -- the outputs' buffers hold whatever the pipeline left in them
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- THE FRAME: every weakly fair execution of @main terminates with the two argument arrays as launched. Each is the array
    of an input window (windows 0 and 1), which the pipeline never writes back, so at the end it holds what it held when the
    region was entered; and nothing runs before the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.Hand

end
-- ==== Proof.LibKeepdims.lean ====
/-
  Layout operations of a `keepdims` reduction read at an index given by coordinates.

  A row reduction that keeps its axis prints as three layout steps around the reduction: the reduced vector
  `[a]` is cast to a column `[a, 1]`, and the column is broadcast back over the row axis to `[a, b]`; a
  value reduced to one number `[1, 1]` is broadcast down a column `[a, 1]`. Each lemma reads one of these at an
  index written with the coordinate constructors `ix1` / `ix2`, so that it applies to a printed operation by
  unification, at any extents. They are the column-shaped companions of the row-shaped lemmas
  `shapeCast_a_1a_apply` and `broadcastTo_1b_ab_apply`.
-/
import Idealize.ShloMosaic.Lib.Pipeline.Value
import Idealize.ShloMosaic.Lib.ValueIdx
import Idealize.ShloMosaic.Lib.ValueLayout

namespace Cert.Lib.Keepdims

open Idealize.ShloMosaic Idealize.ShloMosaic.ValueIdx

variable {α : Type}

/-- An `[a]` array cast to a column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1]` array broadcast down a column `[a, 1]` reads, at every `(p, u)`, its one entry. -/
theorem broadcastTo_11_a1_apply {a : ℕ} (v : (⟨2, ![1, 1]⟩ : Shape).Idx → α) (h : (⟨2, ![1, 1]⟩ : Shape).Broadcasts ⟨2, ![a, 1]⟩)
    (p : Fin a) (u : Fin 1) : broadcastTo ⟨2, ![a, 1]⟩ v h (ix2 p u) = v (ix2 (0 : Fin 1) (0 : Fin 1)) := by
  refine broadcastTo_apply v h (ix2 p u) (ix2 (0 : Fin 1) (0 : Fin 1)) fun ax => ?_
  match ax with
  | ⟨0, _⟩ => rfl
  | ⟨1, _⟩ => rfl

/-- The same four readings as equations between whole arrays, the form `simp only` rewrites a payload with. -/
theorem shapeCast_a_a1_eq {a : ℕ} (x : (⟨1, ![a]⟩ : Shape).Idx → α) (h : (⟨1, ![a]⟩ : Shape).ShapeCasts ⟨2, ![a, 1]⟩) :
    shapeCast ⟨2, ![a, 1]⟩ x h = fun y => x (ix1 (y 0)) :=
  funext fun y => (congrArg (shapeCast ⟨2, ![a, 1]⟩ x h) (eq_ix2 y)).trans (shapeCast_a_a1_apply x h (y 0) (y 1))

theorem broadcastTo_a1_ab_eq {a b : ℕ} (v : (⟨2, ![a, 1]⟩ : Shape).Idx → α) (h : (⟨2, ![a, 1]⟩ : Shape).Broadcasts ⟨2, ![a, b]⟩) :
    broadcastTo ⟨2, ![a, b]⟩ v h = fun y => v (ix2 (y 0) (0 : Fin 1)) :=
  funext fun y => (congrArg (broadcastTo ⟨2, ![a, b]⟩ v h) (eq_ix2 y)).trans (broadcastTo_a1_ab_apply v h (y 0) (y 1))

theorem broadcastTo_1b_ab_eq {a b : ℕ} (v : (⟨2, ![1, b]⟩ : Shape).Idx → α) (h : (⟨2, ![1, b]⟩ : Shape).Broadcasts ⟨2, ![a, b]⟩) :
    broadcastTo ⟨2, ![a, b]⟩ v h = fun y => v (ix2 (0 : Fin 1) (y 1)) :=
  funext fun y => (congrArg (broadcastTo ⟨2, ![a, b]⟩ v h) (eq_ix2 y)).trans (broadcastTo_1b_ab_apply v h (y 0) (y 1))

theorem broadcastTo_11_a1_eq {a : ℕ} (v : (⟨2, ![1, 1]⟩ : Shape).Idx → α) (h : (⟨2, ![1, 1]⟩ : Shape).Broadcasts ⟨2, ![a, 1]⟩) :
    broadcastTo ⟨2, ![a, 1]⟩ v h = fun _ => v (ix2 (0 : Fin 1) (0 : Fin 1)) :=
  funext fun y => (congrArg (broadcastTo ⟨2, ![a, 1]⟩ v h) (eq_ix2 y)).trans (broadcastTo_11_a1_apply v h (y 0) (y 1))

theorem shapeCast_a_1a_eq {a : ℕ} (x : (⟨1, ![a]⟩ : Shape).Idx → α) (h : (⟨1, ![a]⟩ : Shape).ShapeCasts ⟨2, ![1, a]⟩) :
    shapeCast ⟨2, ![1, a]⟩ x h = fun y => x (ix1 (y 1)) :=
  funext fun y => (congrArg (shapeCast ⟨2, ![1, a]⟩ x h) (eq_ix2 y)).trans (shapeCast_a_1a_apply x h (y 0) (y 1))

end Cert.Lib.Keepdims
-- ==== Proof.LibRowSum.lean ====
/-
  A reduction of a matrix along its second axis, read at a row.

  A `vector.multi_reduction <add>` of an `[a, b]` array over axis 1 into an `[a]` array holds, at `r`, the sum of row
  `r`: the index the reduction inserts at position `k` of the reduced axis under the kept index `r` is `(r, k)`. Stated
  with the coordinate constructors `ix1` / `ix2`, at any extents, over the extended reals.
-/
import Idealize.ShloMosaic.PureOps.Ideal.Laws
import Idealize.ShloMosaic.Lib.ValueIdx

noncomputable section

open scoped BigOperators

namespace Cert.Lib.RowSum

open Idealize.ShloMosaic Idealize.ShloMosaic.ValueIdx

/-- The sum over the second axis, at row `r`, is `∑ k, src (r, k)`. -/
theorem multiReduction_add_row_apply {a b : ℕ} {φ : FTy} (src : FVec Ideal (⟨2, ![a, b]⟩ : Shape) φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] (⟨1, ![a]⟩ : Shape) src acc h hφ hacc (ix1 r) = ∑ k : Fin b, src (ix2 r k) := by
  refine (Ideal.multiReduction_add_single src acc h hφ hacc (ix1 r)).trans ?_
  refine Finset.sum_congr rfl fun k _ => congrArg src (funext fun d => Fin.ext ?_)
  match d with
  | ⟨0, _⟩ => rfl
  | ⟨1, _⟩ => rfl

end Cert.Lib.RowSum

end
-- ==== Proof.LibPlainDot.lean ====
/-
  A matrix product read at an entry.

  A product of an \`M × K\` by a \`K × N\` matrix whose dimension numbers contract the left operand's columns with the
  right operand's rows, keep the left rows and the right columns in that order, and have no batch axis. At result
  entry \`(i, j)\` and contraction position \`k\` the left operand is read at \`(i, k)\` and the right at \`(k, j)\`, and the
  one-axis contraction index set is its coordinate range \`Fin K\`; so the sum over the contraction index is the
  textbook \`∑ q, A i q * B q j\`. The same for a stack of \`B\` such products, member by member (one batch axis, the
  first of both operands and of the result). Stated for ANY dimension-number record with those lists, at the
  extended reals, for the accumulating block product into a zero accumulator and for the host's product.
-/
import Idealize.ShloMosaic.PureOps.Ideal
import Idealize.ShloMosaic.PureOps.Ideal.Laws
import Idealize.ShloMosaic.Lib.ValueIdx

noncomputable section

open scoped BigOperators

namespace Cert.LibPlainDot

open Idealize.ShloMosaic Idealize.ShloMosaic.ValueIdx

/-! ## The plain product

The contraction shape lists the sizes of the left operand's contracted axes: here the one size \`K\`. Off the contracted
axis an operand index reads the result index: the left operand's row is the result's row, the right operand's column
the result's column. Each fact is read off the record once its lists are the stated literals. -/

section Plain

variable {M K N : Nat} (d : DotDims (⟨2, ![M, K]⟩ : Shape) (⟨2, ![K, N]⟩ : Shape) (⟨2, ![M, N]⟩ : Shape))
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb

/-- The contraction index set has one axis … -/
theorem contr_rank : d.contr.rank = 1 := by
  obtain ⟨lc, rc, ln, rn, lb, rb, wf⟩ := d
  subst hlc hrc hln hrn hlb hrb
  rfl

/-- … of extent \`K\`, the left operand's number of columns. -/
theorem contr_size (h : 0 < d.contr.rank) : d.contr.size ⟨0, h⟩ = K := by
  obtain ⟨lc, rc, ln, rn, lb, rb, wf⟩ := d
  subst hlc hrc hln hrn hlb hrb
  rfl

/-- The left operand's row is the result's row. -/
theorem lhs_row (i : Fin M) (j : Fin N) (k : d.contr.Idx) : (d.lhsIdx (ix2 i j) k 0).val = i.val := by
  obtain ⟨lc, rc, ln, rn, lb, rb, wf⟩ := d
  subst hlc hrc hln hrn hlb hrb
  rfl

/-- The right operand's column is the result's column. -/
theorem rhs_col (i : Fin M) (j : Fin N) (k : d.contr.Idx) : (d.rhsIdx (ix2 i j) k 1).val = j.val := by
  obtain ⟨lc, rc, ln, rn, lb, rb, wf⟩ := d
  subst hlc hrc hln hrn hlb hrb
  rfl

/-- THE CONTRACTION'S SUM OF A PLAIN PRODUCT at entry \`(i, j)\` is the matrix product's entry: at contraction position
    \`k\` with coordinate \`q\` the left operand is read at \`(i, q)\` and the right at \`(q, j)\`, and the positions
    correspond one to one to the coordinates \`q : Fin K\`, so the sum is re-indexed by them. -/
theorem plain_sum (l : (⟨2, ![M, K]⟩ : Shape).Idx → EReal) (r : (⟨2, ![K, N]⟩ : Shape).Idx → EReal)
    (i : Fin M) (j : Fin N) :
    (∑ k : d.contr.Idx, l (d.lhsIdx (ix2 i j) k) * r (d.rhsIdx (ix2 i j) k))
      = ∑ q : Fin K, l (ix2 i q) * r (ix2 q j) := by
  have h1 := contr_rank d hlc hrc hln hrn hlb hrb
  have hK := contr_size d hlc hrc hln hrn hlb hrb (by omega)
  -- the operand indices at position \`k\`, by coordinates
  have hl : ∀ k : d.contr.Idx, d.lhsIdx (ix2 i j) k = ix2 i (contrEquiv1 d K h1 hK k) := by
    intro k
    funext a
    refine Fin.ext ?_
    match a with
    | ⟨0, _⟩ => exact lhs_row d hlc hrc hln hrn hlb hrb i j k
    | ⟨1, _⟩ => exact d.lhsIdx_val_of_single hlc (ix2 i j) k
  have hr : ∀ k : d.contr.Idx, d.rhsIdx (ix2 i j) k = ix2 (contrEquiv1 d K h1 hK k) j := by
    intro k
    funext a
    refine Fin.ext ?_
    match a with
    | ⟨0, _⟩ => exact d.rhsIdx_val_of_single hrc (ix2 i j) k
    | ⟨1, _⟩ => exact rhs_col d hlc hrc hln hrn hlb hrb i j k
  calc (∑ k : d.contr.Idx, l (d.lhsIdx (ix2 i j) k) * r (d.rhsIdx (ix2 i j) k))
      = ∑ k : d.contr.Idx, (fun q : Fin K => l (ix2 i q) * r (ix2 q j)) (contrEquiv1 d K h1 hK k) :=
        Finset.sum_congr rfl fun k _ => by rw [hl k, hr k]
    _ = ∑ q : Fin K, l (ix2 i q) * r (ix2 q j) :=
        Equiv.sum_comp (contrEquiv1 d K h1 hK) fun q : Fin K => l (ix2 i q) * r (ix2 q j)
    _ = ∑ q : Fin K, l (ix2 i q) * r (ix2 q j) := rfl

/-- A block product into the zero accumulator, read at \`(i, j)\`, is the matrix product's entry. -/
theorem matmul_zero_apply (prec : Option ContractPrecision) (l : FVec Ideal (⟨2, ![M, K]⟩ : Shape) .f32)
    (r : FVec Ideal (⟨2, ![K, N]⟩ : Shape) .f32) (i : Fin M) (j : Fin N) :
    FloatOps.matmul d prec l r (constant (⟨2, ![M, N]⟩ : Shape) .f32 0x00000000#32) (ix2 i j)
      = ∑ q : Fin K, l (ix2 i q) * r (ix2 q j) := by
  rw [Ideal.matmul_constant_zero_apply]
  exact plain_sum d hlc hrc hln hrn hlb hrb l r i j

/-- The same, with the block product spelled by its vector-level name. -/
theorem matmul_zero_apply' (prec : Option ContractPrecision) (l : FVec Ideal (⟨2, ![M, K]⟩ : Shape) .f32)
    (r : FVec Ideal (⟨2, ![K, N]⟩ : Shape) .f32) (i : Fin M) (j : Fin N) :
    matmul d prec l r (constant (⟨2, ![M, N]⟩ : Shape) .f32 0x00000000#32) (ix2 i j)
      = ∑ q : Fin K, l (ix2 i q) * r (ix2 q j) :=
  matmul_zero_apply d hlc hrc hln hrn hlb hrb prec l r i j

/-- The host's product, read at \`(i, j)\`, is the matrix product's entry. -/
theorem hostDot_apply (prec : Option ContractPrecision) (l : FVec Ideal (⟨2, ![M, K]⟩ : Shape) .f32)
    (r : FVec Ideal (⟨2, ![K, N]⟩ : Shape) .f32) (i : Fin M) (j : Fin N) :
    Host.dotGeneral d prec l r (ix2 i j) = ∑ q : Fin K, l (ix2 i q) * r (ix2 q j) := by
  show FloatOps.dotGeneral d prec .single l r (ix2 i j) = _
  rw [Ideal.dotGeneral_apply]
  exact plain_sum d hlc hrc hln hrn hlb hrb l r i j

end Plain

/-! ## The stack of products

One batch axis, the first of both operands and of the result; the left operand's last axis is contracted with the
right operand's middle one. Both operands read the result's batch coordinate; the left operand's row is the result's
row, the right operand's column the result's column. -/

section Batched

variable {B M K N : Nat}
  (d : DotDims (⟨3, ![B, M, K]⟩ : Shape) (⟨3, ![B, K, N]⟩ : Shape) (⟨3, ![B, M, N]⟩ : Shape))
  (hlc : d.lhsContracting = [2]) (hrc : d.rhsContracting = [1]) (hln : d.lhsNonContracting = [1])
  (hrn : d.rhsNonContracting = [2]) (hlb : d.lhsBatch = [0]) (hrb : d.rhsBatch = [0])

include hlc hrc hln hrn hlb hrb

/-- The contraction index set has one axis … -/
theorem contr_rank3 : d.contr.rank = 1 := by
  obtain ⟨lc, rc, ln, rn, lb, rb, wf⟩ := d
  subst hlc hrc hln hrn hlb hrb
  rfl

/-- … of extent \`K\`, the size of the left operand's last axis. -/
theorem contr_size3 (h : 0 < d.contr.rank) : d.contr.size ⟨0, h⟩ = K := by
  obtain ⟨lc, rc, ln, rn, lb, rb, wf⟩ := d
  subst hlc hrc hln hrn hlb hrb
  rfl

/-- The left operand's member is the result's member … -/
theorem lhs_batch3 (b : Fin B) (i : Fin M) (j : Fin N) (k : d.contr.Idx) :
    (d.lhsIdx (ix3 b i j) k 0).val = b.val := by
  obtain ⟨lc, rc, ln, rn, lb, rb, wf⟩ := d
  subst hlc hrc hln hrn hlb hrb
  rfl

/-- … and its row the result's row. -/
theorem lhs_row3 (b : Fin B) (i : Fin M) (j : Fin N) (k : d.contr.Idx) :
    (d.lhsIdx (ix3 b i j) k 1).val = i.val := by
  obtain ⟨lc, rc, ln, rn, lb, rb, wf⟩ := d
  subst hlc hrc hln hrn hlb hrb
  rfl

/-- The right operand's member is the result's member … -/
theorem rhs_batch3 (b : Fin B) (i : Fin M) (j : Fin N) (k : d.contr.Idx) :
    (d.rhsIdx (ix3 b i j) k 0).val = b.val := by
  obtain ⟨lc, rc, ln, rn, lb, rb, wf⟩ := d
  subst hlc hrc hln hrn hlb hrb
  rfl

/-- … and its column the result's column. -/
theorem rhs_col3 (b : Fin B) (i : Fin M) (j : Fin N) (k : d.contr.Idx) :
    (d.rhsIdx (ix3 b i j) k 2).val = j.val := by
  obtain ⟨lc, rc, ln, rn, lb, rb, wf⟩ := d
  subst hlc hrc hln hrn hlb hrb
  rfl

/-- THE HOST'S PRODUCT OF TWO STACKS, member by member, read at \`(b, i, j)\`, is entry \`(i, j)\` of the product of the
    two members \`b\`: at contraction position \`k\` with coordinate \`q\` the left stack is read at \`(b, i, q)\` and the
    right at \`(b, q, j)\`, and the sum is re-indexed by \`q : Fin K\`. -/
theorem batchDot_apply (prec : Option ContractPrecision) (l : FVec Ideal (⟨3, ![B, M, K]⟩ : Shape) .f32)
    (r : FVec Ideal (⟨3, ![B, K, N]⟩ : Shape) .f32) (b : Fin B) (i : Fin M) (j : Fin N) :
    Host.dotGeneral d prec l r (ix3 b i j)
      = ∑ q : Fin K, l (ix3 b i q) * r (ix3 b q j) := by
  have h1 := contr_rank3 d hlc hrc hln hrn hlb hrb
  have hK := contr_size3 d hlc hrc hln hrn hlb hrb (by omega)
  have hl : ∀ k : d.contr.Idx, d.lhsIdx (ix3 b i j) k = ix3 b i (contrEquiv1 d K h1 hK k) := by
    intro k
    funext a
    refine Fin.ext ?_
    match a with
    | ⟨0, _⟩ => exact lhs_batch3 d hlc hrc hln hrn hlb hrb b i j k
    | ⟨1, _⟩ => exact lhs_row3 d hlc hrc hln hrn hlb hrb b i j k
    | ⟨2, _⟩ => exact d.lhsIdx_val_of_single hlc (ix3 b i j) k
  have hr : ∀ k : d.contr.Idx, d.rhsIdx (ix3 b i j) k = ix3 b (contrEquiv1 d K h1 hK k) j := by
    intro k
    funext a
    refine Fin.ext ?_
    match a with
    | ⟨0, _⟩ => exact rhs_batch3 d hlc hrc hln hrn hlb hrb b i j k
    | ⟨1, _⟩ => exact d.rhsIdx_val_of_single hrc (ix3 b i j) k
    | ⟨2, _⟩ => exact rhs_col3 d hlc hrc hln hrn hlb hrb b i j k
  show FloatOps.dotGeneral d prec .single l r (ix3 b i j) = _
  rw [Ideal.dotGeneral_apply]
  calc (∑ k : d.contr.Idx, l (d.lhsIdx (ix3 b i j) k) * r (d.rhsIdx (ix3 b i j) k))
      = ∑ k : d.contr.Idx, (fun q : Fin K => l (ix3 b i q) * r (ix3 b q j)) (contrEquiv1 d K h1 hK k) :=
        Finset.sum_congr rfl fun k _ => by rw [hl k, hr k]
    _ = ∑ q : Fin K, l (ix3 b i q) * r (ix3 b q j) :=
        Equiv.sum_comp (contrEquiv1 d K h1 hK) fun q : Fin K => l (ix3 b i q) * r (ix3 b q j)
    _ = ∑ q : Fin K, l (ix3 b i q) * r (ix3 b q j) := rfl

end Batched

end Cert.LibPlainDot

end
-- ==== Proof.KernelPayload.lean ====
/-
  What the body stores into its three output blocks, entry by entry, as functions of its two input blocks.

  With `x` the `[1, 128, 128]` block of queries and `y` the `[128, 128]` block of the reference set, entry
  `(0, p, q)` of the three stored blocks is: the sum over `k` of `(x[0,p,k] · rsqrt (Σ_d x[0,p,d]²)) · (y[q,k] · rsqrt (Σ_d y[q,d]²))`
  (each row scaled by the reciprocal root of its squared norm, then the product of the scaled queries with the transposed
  scaled reference rows, into a zero accumulator); the sum over `d` of `|x[0,p,d] − y[q,d]|`; and the square root of the sum
  over `d` of `(x[0,p,d] − y[q,d])²`. Each line of the body is a layout step (a unit axis dropped or added, a column laid
  along the rows, a transposition, a row laid along a new middle or leading axis) or an entrywise operation or a sum
  along the last axis; each is read at an entry by one lemma.
-/
import proofs.«134703_j11759620456454_1_alg».proof.Proof.Gen.KernelIdeal.Skeleton
import proofs.«134703_j11759620456454_1_alg».proof.Proof.LibKeepdims
import proofs.«134703_j11759620456454_1_alg».proof.Proof.LibRowSum
import proofs.«134703_j11759620456454_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen

variable [Cert.KernelIdeal.Facts]

/-! ## Layout steps of the pairwise difference -/

/-- A matrix `[a, b]` given a unit middle axis reads, at `(p, u, d)`, the matrix at `(p, d)`. -/
theorem shapeCast_ab_a1b_apply {α : Type} {a b : ℕ} (x : (⟨2, ![a, b]⟩ : Shape).Idx → α)
    (h : (⟨2, ![a, b]⟩ : Shape).ShapeCasts ⟨3, ![a, 1, b]⟩) (p : Fin a) (u : Fin 1) (d : Fin b) :
    shapeCast ⟨3, ![a, 1, b]⟩ x h (ix3 p u d) = x (ix2 p d) :=
  shapeCast_apply x h _ _ (by
    have hu : u.val = 0 := by omega
    rw [Shape.rowMajor_val_three, Shape.rowMajor_val_two]
    show p.val * b + d.val = (p.val * 1 + u.val) * b + d.val
    rw [hu, Nat.mul_one, Nat.add_zero])

/-- An `[a, 1, b]` array laid along a new middle extent `c` reads, at `(p, q, d)`, the array at `(p, 0, d)`. -/
theorem broadcastTo_a1b_acb_apply {α : Type} {a b c : ℕ} (v : (⟨3, ![a, 1, b]⟩ : Shape).Idx → α)
    (h : (⟨3, ![a, 1, b]⟩ : Shape).Broadcasts ⟨3, ![a, c, b]⟩) (p : Fin a) (q : Fin c) (d : Fin b) :
    broadcastTo ⟨3, ![a, c, b]⟩ v h (ix3 p q d) = v (ix3 p (0 : Fin 1) d) := by
  refine broadcastTo_apply v h (ix3 p q d) (ix3 p (0 : Fin 1) d) fun ax => ?_
  match ax with
  | ⟨0, _⟩ =>
    show p.val = if a = 1 then 0 else p.val
    split
    · have := p.isLt; omega
    · rfl
  | ⟨1, _⟩ => rfl
  | ⟨2, _⟩ =>
    show d.val = if b = 1 then 0 else d.val
    split
    · have := d.isLt; omega
    · rfl

/-- A `[1, c, b]` array laid along a new leading extent `a` reads, at `(p, q, d)`, the array at `(0, q, d)`. -/
theorem broadcastTo_1cb_acb_apply {α : Type} {a b c : ℕ} (v : (⟨3, ![1, c, b]⟩ : Shape).Idx → α)
    (h : (⟨3, ![1, c, b]⟩ : Shape).Broadcasts ⟨3, ![a, c, b]⟩) (p : Fin a) (q : Fin c) (d : Fin b) :
    broadcastTo ⟨3, ![a, c, b]⟩ v h (ix3 p q d) = v (ix3 (0 : Fin 1) q d) := by
  refine broadcastTo_apply v h (ix3 p q d) (ix3 (0 : Fin 1) q d) fun ax => ?_
  match ax with
  | ⟨0, _⟩ => rfl
  | ⟨1, _⟩ =>
    show q.val = if c = 1 then 0 else q.val
    split
    · have := q.isLt; omega
    · rfl
  | ⟨2, _⟩ =>
    show d.val = if b = 1 then 0 else d.val
    split
    · have := d.isLt; omega
    · rfl

/-- The sum of an `[a, c, b]` array over its last axis, at `(p, q)`, is `∑ d, src (p, q, d)`. -/
theorem multiReduction_add_last3_apply {a c b : ℕ} {φ : FTy} (src : FVec Ideal (⟨3, ![a, c, b]⟩ : Shape) φ) (acc : BitVec φ.bits)
    (h : (⟨3, ![a, c, b]⟩ : Shape).Reduces [2] (⟨2, ![a, c]⟩ : Shape)) (hφ : FKind.Formats φ)
    (hacc : acc = FKind.add.neutral φ hφ) (p : Fin a) (q : Fin c) :
    multiReduction .add [2] (⟨2, ![a, c]⟩ : Shape) src acc h hφ hacc (ix2 p q) = ∑ d : Fin b, src (ix3 p q d) := by
  refine (Ideal.multiReduction_add_single src acc h hφ hacc (ix2 p q)).trans ?_
  refine Finset.sum_congr rfl fun k _ => congrArg src (funext fun e => Fin.ext ?_)
  match e with
  | ⟨0, _⟩ => rfl
  | ⟨1, _⟩ => rfl
  | ⟨2, _⟩ => rfl

/-! ## The body's values at an entry -/

variable (x : Vec Ideal S1x128x128 .f32) (y : Vec Ideal S128x128 .f32)

/-- The query block with its unit axis dropped. -/
theorem pay1_apply (p k : Fin 128) : k0_pay1 x (ix2 p k) = x (ix3 (0 : Fin 1) p k) := by
  unfold k0_pay1
  exact shapeCast_1ab_ab_apply x _ p k

/-- A `[128, 128]` block scaled row by row by the reciprocal root of the row's squared norm, at `(p, k)`. -/
theorem scaled_apply (v : FVec Ideal S128x128 .f32) (p k : Fin 128) :
    mulf v (broadcastTo S128x128 (rsqrt (shapeCast S128x1
        (multiReduction .add [1] S128 (mulf v v) 0x00000000#32 reduces_S128x128_S128 (.inl rfl) rfl) shapeCasts_S128_S128x1))
        broadcasts_S128x1_S128x128) (ix2 p k)
      = v (ix2 p k) * Ideal.rsqrt (∑ d : Fin 128, v (ix2 p d) * v (ix2 p d)) := by
  show v (ix2 p k) * _ = _
  congr 1
  refine (Cert.Lib.Keepdims.broadcastTo_a1_ab_apply _ broadcasts_S128x1_S128x128 p k).trans ?_
  show Ideal.rsqrt _ = _
  congr 1
  refine (Cert.Lib.Keepdims.shapeCast_a_a1_apply _ shapeCasts_S128_S128x1 p (0 : Fin 1)).trans ?_
  exact Cert.Lib.RowSum.multiReduction_add_row_apply _ _ reduces_S128x128_S128 _ _ p

/-- THE COSINE BLOCK at `(0, p, q)`. -/
theorem pay3_apply (u : Fin 1) (p q : Fin 128) :
    k0_pay3 x y (ix3 u p q)
      = ∑ k : Fin 128, (x (ix3 (0 : Fin 1) p k) * Ideal.rsqrt (∑ d : Fin 128, x (ix3 (0 : Fin 1) p d) * x (ix3 (0 : Fin 1) p d)))
          * (y (ix2 q k) * Ideal.rsqrt (∑ d : Fin 128, y (ix2 q d) * y (ix2 q d))) := by
  unfold k0_pay3
  refine (shapeCast_ab_1ab_apply _ shapeCasts_S128x128_S1x128x128 u p q).trans ?_
  refine (Cert.LibPlainDot.matmul_zero_apply' dot_S128x128_S128x128_S128x128_1_0_0_1_n_n rfl rfl rfl rfl rfl rfl none _ _ p q).trans ?_
  refine Finset.sum_congr rfl fun k _ => ?_
  rw [transpose_ix2_apply _ transposes_S128x128_p1_0_S128x128 k q, scaled_apply, scaled_apply]
  simp only [pay1_apply]

/-- The pairwise difference at `(p, q, d)`. -/
theorem pay2_apply (p q d : Fin 128) : k0_pay2 x y (ix3 p q d) = x (ix3 (0 : Fin 1) p d) - y (ix2 q d) := by
  unfold k0_pay2
  show _ - _ = _
  congr 1
  · refine (broadcastTo_a1b_acb_apply _ broadcasts_S128x1x128_S128x128x128 p q d).trans ?_
    refine (shapeCast_ab_a1b_apply _ shapeCasts_S128x128_S128x1x128 p (0 : Fin 1) d).trans ?_
    exact pay1_apply x p d
  · refine (broadcastTo_1cb_acb_apply _ broadcasts_S1x128x128_S128x128x128 p q d).trans ?_
    exact shapeCast_ab_1ab_apply _ shapeCasts_S128x128_S1x128x128 (0 : Fin 1) q d

/-- THE L1 BLOCK at `(0, p, q)`. -/
theorem pay4_apply (u : Fin 1) (p q : Fin 128) :
    k0_pay4 x y (ix3 u p q)
      = ∑ d : Fin 128, max (x (ix3 (0 : Fin 1) p d) - y (ix2 q d)) (-(x (ix3 (0 : Fin 1) p d) - y (ix2 q d))) := by
  unfold k0_pay4
  refine (shapeCast_ab_1ab_apply _ shapeCasts_S128x128_S1x128x128 u p q).trans ?_
  refine (multiReduction_add_last3_apply _ _ reduces_S128x128x128_S128x128 _ _ p q).trans ?_
  refine Finset.sum_congr rfl fun d _ => ?_
  show max (k0_pay2 x y (ix3 p q d)) (-(k0_pay2 x y (ix3 p q d))) = _
  rw [pay2_apply]

/-- THE L2 BLOCK at `(0, p, q)`. -/
theorem pay5_apply (u : Fin 1) (p q : Fin 128) :
    k0_pay5 x y (ix3 u p q)
      = Ideal.sqrt (∑ d : Fin 128, (x (ix3 (0 : Fin 1) p d) - y (ix2 q d)) * (x (ix3 (0 : Fin 1) p d) - y (ix2 q d))) := by
  unfold k0_pay5
  refine (shapeCast_ab_1ab_apply _ shapeCasts_S128x128_S1x128x128 u p q).trans ?_
  show Ideal.sqrt _ = _
  congr 1
  refine (multiReduction_add_last3_apply _ _ reduces_S128x128x128_S128x128 _ _ p q).trans ?_
  refine Finset.sum_congr rfl fun d _ => ?_
  show k0_pay2 x y (ix3 p q d) * k0_pay2 x y (ix3 p q d) = _
  rw [pay2_apply]

end Cert.KernelIdeal.Payload

end
-- ==== Proof.Spec.lean ====
/-
  What the two programs compute, as functions of the two argument arrays over the extended reals.

  For a query row `x[b, n, ·]` and a reference row `y[j, ·]` (both of length 128) three numbers are produced:
  the cosine similarity, the L1 distance and the L2 distance. The cosine is written twice: once with each row
  SCALED BY THE RECIPROCAL SQUARE ROOT of its squared norm, and once with each row DIVIDED BY THE SQUARE ROOT of
  its squared norm. On the extended reals the two agree as soon as both squared norms are positive: for
  `0 < s`, either `s = ⊤`, where the reciprocal root is `0` and the quotient by `√⊤ = ⊤` is the product with
  `⊤⁻¹ = 0`; or `s` is a positive real, where the reciprocal root is `(√s)⁻¹` and the quotient by the nonzero
  real `√s` is the product with its inverse. (At `s = 0` they differ: `0 · ⊤ = 0` against `0 / 0 = ⊥`.)
-/
import Idealize.ShloMosaic.PureOps.Ideal
import Idealize.ShloMosaic.Lib.ValueIdx

noncomputable section

open scoped BigOperators

namespace Cert.Spec

open Idealize.ShloMosaic Idealize.ShloMosaic.ValueIdx

abbrev SX : Shape := ⟨3, ![4, 512, 128]⟩
abbrev SY : Shape := ⟨2, ![512, 128]⟩
abbrev SO : Shape := ⟨3, ![4, 512, 512]⟩

/-- The squared norm of query row `(b, n)`. -/
def sqX (x : SX.Idx → EReal) (b : Fin 4) (n : Fin 512) : EReal := ∑ d : Fin 128, x (ix3 b n d) * x (ix3 b n d)
/-- The squared norm of reference row `j`. -/
def sqY (y : SY.Idx → EReal) (j : Fin 512) : EReal := ∑ d : Fin 128, y (ix2 j d) * y (ix2 j d)

/-- The cosine with each row scaled by the reciprocal square root of its squared norm. -/
def cosMul (x : SX.Idx → EReal) (y : SY.Idx → EReal) (b : Fin 4) (n : Fin 512) (j : Fin 512) : EReal :=
  ∑ k : Fin 128, (x (ix3 b n k) * Ideal.rsqrt (sqX x b n)) * (y (ix2 j k) * Ideal.rsqrt (sqY y j))

/-- The cosine with each row divided by the square root of its squared norm. -/
def cosDiv (x : SX.Idx → EReal) (y : SY.Idx → EReal) (b : Fin 4) (n : Fin 512) (j : Fin 512) : EReal :=
  ∑ k : Fin 128, Ideal.div (x (ix3 b n k)) (Ideal.sqrt (sqX x b n)) * Ideal.div (y (ix2 j k)) (Ideal.sqrt (sqY y j))

/-- The L1 distance of the two rows (the absolute value as `max a (-a)`). -/
def dist1 (x : SX.Idx → EReal) (y : SY.Idx → EReal) (b : Fin 4) (n : Fin 512) (j : Fin 512) : EReal :=
  ∑ d : Fin 128, max (x (ix3 b n d) - y (ix2 j d)) (-(x (ix3 b n d) - y (ix2 j d)))

/-- The L2 distance of the two rows. -/
def dist2 (x : SX.Idx → EReal) (y : SY.Idx → EReal) (b : Fin 4) (n : Fin 512) (j : Fin 512) : EReal :=
  Ideal.sqrt (∑ d : Fin 128, (x (ix3 b n d) - y (ix2 j d)) * (x (ix3 b n d) - y (ix2 j d)))

/-- A function of the three coordinates as an array over `[4, 512, 512]`. -/
def arr3 (f : Fin 4 → Fin 512 → Fin 512 → EReal) : SO.Idx → EReal := fun i => f (i 0) (i 1) (i 2)

theorem arr3_apply (f : Fin 4 → Fin 512 → Fin 512 → EReal) (b : Fin 4) (n j : Fin 512) : arr3 f (ix3 b n j) = f b n j := rfl

/-- Scaling by the reciprocal square root of a positive extended real is dividing by its square root. -/
theorem mul_rsqrt_eq_div_sqrt (a s : EReal) (hs : 0 < s) : a * Ideal.rsqrt s = Ideal.div a (Ideal.sqrt s) := by
  induction s using EReal.rec with
  | bot => exact absurd hs (not_lt.mpr bot_le)
  | top =>
    rw [Ideal.rsqrt_top, Ideal.sqrt_top, Ideal.div, if_neg EReal.top_ne_zero, EReal.inv_top]
  | coe r =>
    have hr : 0 < r := EReal.coe_pos.mp hs
    have hsq : Real.sqrt r ≠ 0 := (Real.sqrt_pos.mpr hr).ne'
    rw [Ideal.rsqrt_coe, if_neg (not_lt.mpr hr.le), if_neg hr.ne', Ideal.sqrt_coe, if_neg (not_lt.mpr hr.le),
      Ideal.div_coe hsq, one_div]

/-- Where every squared norm is positive the two cosines are one function. -/
theorem cosMul_eq_cosDiv (x : SX.Idx → EReal) (y : SY.Idx → EReal) (hx : ∀ b n, 0 < sqX x b n) (hy : ∀ j, 0 < sqY y j) :
    cosMul x y = cosDiv x y := by
  funext b n j
  unfold cosMul cosDiv
  refine Finset.sum_congr rfl fun k _ => ?_
  rw [mul_rsqrt_eq_div_sqrt _ _ (hx b n), mul_rsqrt_eq_div_sqrt _ _ (hy j)]

end Cert.Spec

end
-- ==== Proof.LibNary3.lean ====
/-
  A general lemma about the host operation that takes a literal family of THREE operand references (what a
  three-piece concatenation prints to): its result, read at its own result buffer, is its function applied to the
  three operands' contents, each AT ITS OWN REFERENCE. The library states the same for a family of four; for three
  it has only the form with the family under a binder, where no later rewriting can reach the operands' contents.
  With it, one simplification pass that reads a straight line of host operations at a buffer, as the library's does,
  with this lemma in the place of the binder form.
-/
import Idealize.ShloMosaic.Lib.StableHlo.Run

noncomputable section

namespace Idealize.ShloMosaic.StableHlo

variable {τ : Topo} {sig : RefSig} {Val : EltTy → Type}
variable {x a b y : Ref sig .tc}

/-- A host operation over the literal family of three references `![x, a, b]`: what it leaves at its result buffer is its
    function at the three operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, its result reference left out of the simplifier's index (the form a simplification pass can use). -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Reads `after ops V` at a buffer for a literal list of host operations, in one simplification pass: each operation's
    result at its own buffer is its function's value, at any other reference what was there; an operation over a literal
    family of three references is read by `nary3_result'`. -/
macro "after_results3" : tactic =>
  `(tactic| (simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.KernelValue.lean ====
/-
  What the idealized kernel's program leaves in its result: the three arrays the region writes, each as one function of the
  two argument arrays, and the stacked result of the host lines after it.

  Grid point `t = (b, n, j)` reads rows `128 n … 128 n + 127` of batch `b` of the queries and rows `128 j … 128 j + 127`
  of the reference set, and writes back block `(b, n, j)` of each output array; entry `(0, p, q)` of what it stores
  depends on query row `(b, 128 n + p)` and reference row `128 j + q` only, which are exactly the rows the array index under
  that entry names. The 64 blocks tile each `[4, 512, 512]` array, so after the run each array is its function of the
  arguments everywhere. The host lines then give each array a trailing unit axis and concatenate the three along it.
-/
import proofs.«134703_j11759620456454_1_alg».proof.Proof.KernelIdealFrame
import proofs.«134703_j11759620456454_1_alg».proof.Proof.KernelPayload
import proofs.«134703_j11759620456454_1_alg».proof.Proof.Spec
import proofs.«134703_j11759620456454_1_alg».proof.Proof.LibNary3
import Idealize.ShloMosaic.Lib.Pipeline.Value
import Idealize.ShloMosaic.Lib.StableHlo.Run

set_option maxRecDepth 16384

noncomputable section

open scoped BigOperators

namespace Cert.KernelIdeal.HandValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Hand Cert.KernelIdeal.Payload Cert.Spec

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## The stored blocks at an entry of any index -/

theorem pay3_at (x : Vec Ideal S1x128x128 .f32) (y : Vec Ideal S128x128 .f32) (j : S1x128x128.Idx) :
    k0_pay3 x y j = ∑ k : Fin 128, (x (ix3 (0 : Fin 1) (j 1) k) * Ideal.rsqrt (∑ d : Fin 128, x (ix3 (0 : Fin 1) (j 1) d) * x (ix3 (0 : Fin 1) (j 1) d)))
          * (y (ix2 (j 2) k) * Ideal.rsqrt (∑ d : Fin 128, y (ix2 (j 2) d) * y (ix2 (j 2) d))) :=
  (congrArg (k0_pay3 x y) (eq_ix3 j)).trans (pay3_apply x y (j 0) (j 1) (j 2))

theorem pay4_at (x : Vec Ideal S1x128x128 .f32) (y : Vec Ideal S128x128 .f32) (j : S1x128x128.Idx) :
    k0_pay4 x y j = ∑ d : Fin 128, max (x (ix3 (0 : Fin 1) (j 1) d) - y (ix2 (j 2) d)) (-(x (ix3 (0 : Fin 1) (j 1) d) - y (ix2 (j 2) d))) :=
  (congrArg (k0_pay4 x y) (eq_ix3 j)).trans (pay4_apply x y (j 0) (j 1) (j 2))

theorem pay5_at (x : Vec Ideal S1x128x128 .f32) (y : Vec Ideal S128x128 .f32) (j : S1x128x128.Idx) :
    k0_pay5 x y j = Ideal.sqrt (∑ d : Fin 128, (x (ix3 (0 : Fin 1) (j 1) d) - y (ix2 (j 2) d)) * (x (ix3 (0 : Fin 1) (j 1) d) - y (ix2 (j 2) d))) :=
  (congrArg (k0_pay5 x y) (eq_ix3 j)).trans (pay5_apply x y (j 0) (j 1) (j 2))

/-! ## Output window 2: cosine (rows scaled by reciprocal roots) -/

/-- The printed index maps of this output window and of the two input windows, decided over the 64 grid points: the
    query block moves with the output's first two block coordinates, the reference block with its third. -/
theorem idx_facts2 : ∀ t : Fin cfg0.N, win0_0.index t (0 : Fin 3) = win0_2.index t (0 : Fin 3)
    ∧ win0_0.index t (1 : Fin 3) = win0_2.index t (1 : Fin 3)
    ∧ win0_0.index t (2 : Fin 3) = 0
    ∧ win0_1.index t (0 : Fin 2) = win0_2.index t (2 : Fin 3)
    ∧ win0_1.index t (1 : Fin 2) = 0
    ∧ win0_2.index t (0 : Fin 3) ≤ 3 ∧ win0_2.index t (1 : Fin 3) ≤ 3 ∧ win0_2.index t (2 : Fin 3) ≤ 3 :=
  (by decide +kernel : ∀ t : Fin grid0.N, _)

/-- Every block of the array is some point's. -/
theorem idx_onto2 : ∀ (q0 q1 q2 : Fin 4), ∃ t : Fin cfg0.N, win0_2.index t = ![q0.val, q1.val, q2.val] :=
  (by decide +kernel : ∀ (q0 q1 q2 : Fin 4), ∃ t : Fin grid0.N, win0_2.index t = ![q0.val, q1.val, q2.val])

/-- WHAT POINT `t` WRITES BACK is block `t` of the cosine (rows scaled by reciprocal roots) of the two argument arrays. -/
theorem flushed2_eq (c : Dev nD) (t : Fin cfg0.N) :
    (dats m 0 c).flushed 2 t = ((cfg0.win 2).blk t).view.read (Elt Ideal) (arr3 (cosMul (V m c main_arg0) (V m c main_arg1))) := by
  show (cfg0.win 2).cut (grid0.coords t) ((dats m 0 c).after 2 t) = _
  rw [after0_2]
  unfold out0_2
  rw [View.canon_unit_zero hz3]
  simp only [View.ld_unit_zero (S := S1x128x128) hz3, View.ld_unit_zero (S := S128x128) hz2]
  obtain ⟨e0, e1, e2, e3, e4, e5, e6, e7⟩ := idx_facts2 t
  funext j
  have hj0 : (j 0).val < 1 := (j 0).isLt
  have hj1 : (j 1).val < 128 := (j 1).isLt
  have hj2 : (j 2).val < 128 := (j 2).isLt
  refine (pay3_at (iblk m c 0 t) (iblk m c 1 t) j).trans ?_
  have hx : ∀ k : Fin 128, iblk m c 0 t (ix3 (0 : Fin 1) (j 1) k)
      = V m c main_arg0 (ix3 (((cfg0.win 2).blk t).view.emb j 0) (((cfg0.win 2).blk t).view.emb j 1) k) := by
    intro k
    show V m c main_arg0 (((cfg0.win 0).blk t).view.emb (ix3 (0 : Fin 1) (j 1) k)) = _
    refine congrArg (V m c main_arg0) (funext fun a => Fin.ext ?_)
    match a with
    | ⟨0, _⟩ => show win0_0.index t (0 : Fin 3) * 1 + 1 * 0 = win0_2.index t (0 : Fin 3) * 1 + 1 * (j 0).val; omega
    | ⟨1, _⟩ => show win0_0.index t (1 : Fin 3) * 128 + 1 * (j 1).val = win0_2.index t (1 : Fin 3) * 128 + 1 * (j 1).val; omega
    | ⟨2, _⟩ => show win0_0.index t (2 : Fin 3) * 128 + 1 * k.val = k.val; omega
  have hy : ∀ k : Fin 128, iblk m c 1 t (ix2 (j 2) k)
      = V m c main_arg1 (ix2 (((cfg0.win 2).blk t).view.emb j 2) k) := by
    intro k
    show V m c main_arg1 (((cfg0.win 1).blk t).view.emb (ix2 (j 2) k)) = _
    refine congrArg (V m c main_arg1) (funext fun a => Fin.ext ?_)
    match a with
    | ⟨0, _⟩ => show win0_1.index t (0 : Fin 2) * 128 + 1 * (j 2).val = win0_2.index t (2 : Fin 3) * 128 + 1 * (j 2).val; omega
    | ⟨1, _⟩ => show win0_1.index t (1 : Fin 2) * 128 + 1 * k.val = k.val; omega
  simp only [hx, hy]
  rfl

/-- An index of the array is in point `t`'s block iff each coordinate is in the block's range on its axis. -/
theorem mem_blk2 (t : Fin cfg0.N) (i : S4x512x512.Idx) :
    i ∈ ((cfg0.win 2).blk t).view.set ↔ ∀ a : Fin 3, win0_2.index t a * S1x128x128.size a ≤ (i a).val ∧ (i a).val < win0_2.index t a * S1x128x128.size a + S1x128x128.size a := by
  show i ∈ ((View.whole main_v0_0).slice (win0_2.rect t)).set ↔ _
  rw [View.set_slice_whole, Rect.mem_set_unit]
  exact Iff.rfl

/-- The blocks tile the array: every index is in the block of the point whose block coordinates are its quotients. -/
theorem cover2 (i : S4x512x512.Idx) : ∃ t : Fin cfg0.N, (cfg0.win 2).flush t = true ∧ i ∈ ((cfg0.win 2).blk t).view.set := by
  have hi0 : (i 0).val < 4 := (i 0).isLt
  have hi1 : (i 1).val < 512 := (i 1).isLt
  have hi2 : (i 2).val < 512 := (i 2).isLt
  obtain ⟨t, ht⟩ := idx_onto2 ⟨(i 0).val, by omega⟩ ⟨(i 1).val / 128, by omega⟩ ⟨(i 2).val / 128, by omega⟩
  have q0 : win0_2.index t (0 : Fin 3) = (i 0).val := congrFun ht 0
  have q1 : win0_2.index t (1 : Fin 3) = (i 1).val / 128 := congrFun ht 1
  have q2 : win0_2.index t (2 : Fin 3) = (i 2).val / 128 := congrFun ht 2
  refine ⟨t, flush0_2 t, ?_⟩
  rw [mem_blk2]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 128 ≤ (i 1).val ∧ (i 1).val < win0_2.index t (1 : Fin 3) * 128 + 128; omega
  | ⟨2, _⟩ => show win0_2.index t (2 : Fin 3) * 128 ≤ (i 2).val ∧ (i 2).val < win0_2.index t (2 : Fin 3) * 128 + 128; omega

/-- THE ARRAY after the run: the cosine (rows scaled by reciprocal roots) of the two argument arrays, entry by entry. -/
theorem final2 (c : Dev nD) : (dats m 0 c).arrAt 2 cfg0.N = arr3 (cosMul (V m c main_arg0) (V m c main_arg1)) :=
  (dats m 0 c).arrAt_eq_of_cover 2 _ (fun t _ => flushed2_eq m c t) cover2

/-! ## Output window 3: L1 distance -/

/-- The printed index maps of this output window and of the two input windows, decided over the 64 grid points: the
    query block moves with the output's first two block coordinates, the reference block with its third. -/
theorem idx_facts3 : ∀ t : Fin cfg0.N, win0_0.index t (0 : Fin 3) = win0_3.index t (0 : Fin 3)
    ∧ win0_0.index t (1 : Fin 3) = win0_3.index t (1 : Fin 3)
    ∧ win0_0.index t (2 : Fin 3) = 0
    ∧ win0_1.index t (0 : Fin 2) = win0_3.index t (2 : Fin 3)
    ∧ win0_1.index t (1 : Fin 2) = 0
    ∧ win0_3.index t (0 : Fin 3) ≤ 3 ∧ win0_3.index t (1 : Fin 3) ≤ 3 ∧ win0_3.index t (2 : Fin 3) ≤ 3 :=
  (by decide +kernel : ∀ t : Fin grid0.N, _)

/-- Every block of the array is some point's. -/
theorem idx_onto3 : ∀ (q0 q1 q2 : Fin 4), ∃ t : Fin cfg0.N, win0_3.index t = ![q0.val, q1.val, q2.val] :=
  (by decide +kernel : ∀ (q0 q1 q2 : Fin 4), ∃ t : Fin grid0.N, win0_3.index t = ![q0.val, q1.val, q2.val])

/-- WHAT POINT `t` WRITES BACK is block `t` of the L1 distance of the two argument arrays. -/
theorem flushed3_eq (c : Dev nD) (t : Fin cfg0.N) :
    (dats m 0 c).flushed 3 t = ((cfg0.win 3).blk t).view.read (Elt Ideal) (arr3 (dist1 (V m c main_arg0) (V m c main_arg1))) := by
  show (cfg0.win 3).cut (grid0.coords t) ((dats m 0 c).after 3 t) = _
  rw [after0_3]
  unfold out0_3
  rw [View.canon_unit_zero hz3]
  simp only [View.ld_unit_zero (S := S1x128x128) hz3, View.ld_unit_zero (S := S128x128) hz2]
  obtain ⟨e0, e1, e2, e3, e4, e5, e6, e7⟩ := idx_facts3 t
  funext j
  have hj0 : (j 0).val < 1 := (j 0).isLt
  have hj1 : (j 1).val < 128 := (j 1).isLt
  have hj2 : (j 2).val < 128 := (j 2).isLt
  refine (pay4_at (iblk m c 0 t) (iblk m c 1 t) j).trans ?_
  have hx : ∀ k : Fin 128, iblk m c 0 t (ix3 (0 : Fin 1) (j 1) k)
      = V m c main_arg0 (ix3 (((cfg0.win 3).blk t).view.emb j 0) (((cfg0.win 3).blk t).view.emb j 1) k) := by
    intro k
    show V m c main_arg0 (((cfg0.win 0).blk t).view.emb (ix3 (0 : Fin 1) (j 1) k)) = _
    refine congrArg (V m c main_arg0) (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 128 + 1 * (j 1).val = win0_3.index t (1 : Fin 3) * 128 + 1 * (j 1).val; omega
    | ⟨2, _⟩ => show win0_0.index t (2 : Fin 3) * 128 + 1 * k.val = k.val; omega
  have hy : ∀ k : Fin 128, iblk m c 1 t (ix2 (j 2) k)
      = V m c main_arg1 (ix2 (((cfg0.win 3).blk t).view.emb j 2) k) := by
    intro k
    show V m c main_arg1 (((cfg0.win 1).blk t).view.emb (ix2 (j 2) k)) = _
    refine congrArg (V m c main_arg1) (funext fun a => Fin.ext ?_)
    match a with
    | ⟨0, _⟩ => show win0_1.index t (0 : Fin 2) * 128 + 1 * (j 2).val = win0_3.index t (2 : Fin 3) * 128 + 1 * (j 2).val; omega
    | ⟨1, _⟩ => show win0_1.index t (1 : Fin 2) * 128 + 1 * k.val = k.val; omega
  simp only [hx, hy]
  rfl

/-- An index of the array is in point `t`'s block iff each coordinate is in the block's range on its axis. -/
theorem mem_blk3 (t : Fin cfg0.N) (i : S4x512x512.Idx) :
    i ∈ ((cfg0.win 3).blk t).view.set ↔ ∀ a : Fin 3, win0_3.index t a * S1x128x128.size a ≤ (i a).val ∧ (i a).val < win0_3.index t a * S1x128x128.size a + S1x128x128.size a := by
  show i ∈ ((View.whole main_v0_1).slice (win0_3.rect t)).set ↔ _
  rw [View.set_slice_whole, Rect.mem_set_unit]
  exact Iff.rfl

/-- The blocks tile the array: every index is in the block of the point whose block coordinates are its quotients. -/
theorem cover3 (i : S4x512x512.Idx) : ∃ t : Fin cfg0.N, (cfg0.win 3).flush t = true ∧ i ∈ ((cfg0.win 3).blk t).view.set := by
  have hi0 : (i 0).val < 4 := (i 0).isLt
  have hi1 : (i 1).val < 512 := (i 1).isLt
  have hi2 : (i 2).val < 512 := (i 2).isLt
  obtain ⟨t, ht⟩ := idx_onto3 ⟨(i 0).val, by omega⟩ ⟨(i 1).val / 128, by omega⟩ ⟨(i 2).val / 128, by omega⟩
  have q0 : win0_3.index t (0 : Fin 3) = (i 0).val := congrFun ht 0
  have q1 : win0_3.index t (1 : Fin 3) = (i 1).val / 128 := congrFun ht 1
  have q2 : win0_3.index t (2 : Fin 3) = (i 2).val / 128 := congrFun ht 2
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 128 ≤ (i 2).val ∧ (i 2).val < win0_3.index t (2 : Fin 3) * 128 + 128; omega

/-- THE ARRAY after the run: the L1 distance of the two argument arrays, entry by entry. -/
theorem final3 (c : Dev nD) : (dats m 0 c).arrAt 3 cfg0.N = arr3 (dist1 (V m c main_arg0) (V m c main_arg1)) :=
  (dats m 0 c).arrAt_eq_of_cover 3 _ (fun t _ => flushed3_eq m c t) cover3

/-! ## Output window 4: L2 distance -/

/-- The printed index maps of this output window and of the two input windows, decided over the 64 grid points: the
    query block moves with the output's first two block coordinates, the reference block with its third. -/
theorem idx_facts4 : ∀ t : Fin cfg0.N, win0_0.index t (0 : Fin 3) = win0_4.index t (0 : Fin 3)
    ∧ win0_0.index t (1 : Fin 3) = win0_4.index t (1 : Fin 3)
    ∧ win0_0.index t (2 : Fin 3) = 0
    ∧ win0_1.index t (0 : Fin 2) = win0_4.index t (2 : Fin 3)
    ∧ win0_1.index t (1 : Fin 2) = 0
    ∧ win0_4.index t (0 : Fin 3) ≤ 3 ∧ win0_4.index t (1 : Fin 3) ≤ 3 ∧ win0_4.index t (2 : Fin 3) ≤ 3 :=
  (by decide +kernel : ∀ t : Fin grid0.N, _)

/-- Every block of the array is some point's. -/
theorem idx_onto4 : ∀ (q0 q1 q2 : Fin 4), ∃ t : Fin cfg0.N, win0_4.index t = ![q0.val, q1.val, q2.val] :=
  (by decide +kernel : ∀ (q0 q1 q2 : Fin 4), ∃ t : Fin grid0.N, win0_4.index t = ![q0.val, q1.val, q2.val])

/-- WHAT POINT `t` WRITES BACK is block `t` of the L2 distance of the two argument arrays. -/
theorem flushed4_eq (c : Dev nD) (t : Fin cfg0.N) :
    (dats m 0 c).flushed 4 t = ((cfg0.win 4).blk t).view.read (Elt Ideal) (arr3 (dist2 (V m c main_arg0) (V m c main_arg1))) := by
  show (cfg0.win 4).cut (grid0.coords t) ((dats m 0 c).after 4 t) = _
  rw [after0_4]
  unfold out0_4
  rw [View.canon_unit_zero hz3]
  simp only [View.ld_unit_zero (S := S1x128x128) hz3, View.ld_unit_zero (S := S128x128) hz2]
  obtain ⟨e0, e1, e2, e3, e4, e5, e6, e7⟩ := idx_facts4 t
  funext j
  have hj0 : (j 0).val < 1 := (j 0).isLt
  have hj1 : (j 1).val < 128 := (j 1).isLt
  have hj2 : (j 2).val < 128 := (j 2).isLt
  refine (pay5_at (iblk m c 0 t) (iblk m c 1 t) j).trans ?_
  have hx : ∀ k : Fin 128, iblk m c 0 t (ix3 (0 : Fin 1) (j 1) k)
      = V m c main_arg0 (ix3 (((cfg0.win 4).blk t).view.emb j 0) (((cfg0.win 4).blk t).view.emb j 1) k) := by
    intro k
    show V m c main_arg0 (((cfg0.win 0).blk t).view.emb (ix3 (0 : Fin 1) (j 1) k)) = _
    refine congrArg (V m c main_arg0) (funext fun a => Fin.ext ?_)
    match a with
    | ⟨0, _⟩ => show win0_0.index t (0 : Fin 3) * 1 + 1 * 0 = win0_4.index t (0 : Fin 3) * 1 + 1 * (j 0).val; omega
    | ⟨1, _⟩ => show win0_0.index t (1 : Fin 3) * 128 + 1 * (j 1).val = win0_4.index t (1 : Fin 3) * 128 + 1 * (j 1).val; omega
    | ⟨2, _⟩ => show win0_0.index t (2 : Fin 3) * 128 + 1 * k.val = k.val; omega
  have hy : ∀ k : Fin 128, iblk m c 1 t (ix2 (j 2) k)
      = V m c main_arg1 (ix2 (((cfg0.win 4).blk t).view.emb j 2) k) := by
    intro k
    show V m c main_arg1 (((cfg0.win 1).blk t).view.emb (ix2 (j 2) k)) = _
    refine congrArg (V m c main_arg1) (funext fun a => Fin.ext ?_)
    match a with
    | ⟨0, _⟩ => show win0_1.index t (0 : Fin 2) * 128 + 1 * (j 2).val = win0_4.index t (2 : Fin 3) * 128 + 1 * (j 2).val; omega
    | ⟨1, _⟩ => show win0_1.index t (1 : Fin 2) * 128 + 1 * k.val = k.val; omega
  simp only [hx, hy]
  rfl

/-- An index of the array is in point `t`'s block iff each coordinate is in the block's range on its axis. -/
theorem mem_blk4 (t : Fin cfg0.N) (i : S4x512x512.Idx) :
    i ∈ ((cfg0.win 4).blk t).view.set ↔ ∀ a : Fin 3, win0_4.index t a * S1x128x128.size a ≤ (i a).val ∧ (i a).val < win0_4.index t a * S1x128x128.size a + S1x128x128.size a := by
  show i ∈ ((View.whole main_v0_2).slice (win0_4.rect t)).set ↔ _
  rw [View.set_slice_whole, Rect.mem_set_unit]
  exact Iff.rfl

/-- The blocks tile the array: every index is in the block of the point whose block coordinates are its quotients. -/
theorem cover4 (i : S4x512x512.Idx) : ∃ t : Fin cfg0.N, (cfg0.win 4).flush t = true ∧ i ∈ ((cfg0.win 4).blk t).view.set := by
  have hi0 : (i 0).val < 4 := (i 0).isLt
  have hi1 : (i 1).val < 512 := (i 1).isLt
  have hi2 : (i 2).val < 512 := (i 2).isLt
  obtain ⟨t, ht⟩ := idx_onto4 ⟨(i 0).val, by omega⟩ ⟨(i 1).val / 128, by omega⟩ ⟨(i 2).val / 128, by omega⟩
  have q0 : win0_4.index t (0 : Fin 3) = (i 0).val := congrFun ht 0
  have q1 : win0_4.index t (1 : Fin 3) = (i 1).val / 128 := congrFun ht 1
  have q2 : win0_4.index t (2 : Fin 3) = (i 2).val / 128 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 128 ≤ (i 2).val ∧ (i 2).val < win0_4.index t (2 : Fin 3) * 128 + 128; omega

/-- THE ARRAY after the run: the L2 distance of the two argument arrays, entry by entry. -/
theorem final4 (c : Dev nD) : (dats m 0 c).arrAt 4 cfg0.N = arr3 (dist2 (V m c main_arg0) (V m c main_arg1)) :=
  (dats m 0 c).arrAt_eq_of_cover 4 _ (fun t _ => flushed4_eq m c t) cover4

/-! ## The stacked result -/

/-- The buffer the program returns: the three arrays, each given a trailing unit axis, concatenated along it. -/
theorem result (c : Dev nD) :
    Pipeline.afterTail₀ cfgs (dats m) 0 (V0 m) [hostOps1] c main_v4
      = concatenate S4x512x512x3 3
          [⟨S4x512x512x1, broadcastInDim S4x512x512x1 ![0, 1, 2] bcast_S4x512x512_S4x512x512x1_0_1_2 (arr3 (cosMul (V m c main_arg0) (V m c main_arg1)))⟩,
           ⟨S4x512x512x1, broadcastInDim S4x512x512x1 ![0, 1, 2] bcast_S4x512x512_S4x512x512x1_0_1_2 (arr3 (dist1 (V m c main_arg0) (V m c main_arg1)))⟩,
           ⟨S4x512x512x1, broadcastInDim S4x512x512x1 ![0, 1, 2] bcast_S4x512x512_S4x512x512x1_0_1_2 (arr3 (dist2 (V m c main_arg0) (V m c main_arg1)))⟩]
          concatenates_S4x512x512x1_S4x512x512x1_S4x512x512x1_S4x512x512x3_d3 := by
  unfold Pipeline.afterTail₀
  show StableHlo.after hostOps1 _ (Proc.devRef .tc main_v4) = _
  simp only [StableHlo.after_cons, StableHlo.after_nil]
  rw [StableHlo.nary3_result]
  repeat (first | rw [StableHlo.unary_result] | (rw [StableHlo.unary_result_ne]; rotate_left; decide))
  have h2 : Pipeline.withArrays (cfgs 0).spec c (V0 m c) (fun w => (dats m 0 c).arrAt w (cfgs 0).N) (Proc.devRef .tc main_v0_0)
      = arr3 (cosMul (V m c main_arg0) (V m c main_arg1)) :=
    (Pipeline.withArrays_arr spec0 launch0.win.arr_inj c _ _ 2).trans (final2 m c)
  have h3 : Pipeline.withArrays (cfgs 0).spec c (V0 m c) (fun w => (dats m 0 c).arrAt w (cfgs 0).N) (Proc.devRef .tc main_v0_1)
      = arr3 (dist1 (V m c main_arg0) (V m c main_arg1)) :=
    (Pipeline.withArrays_arr spec0 launch0.win.arr_inj c _ _ 3).trans (final3 m c)
  have h4 : Pipeline.withArrays (cfgs 0).spec c (V0 m c) (fun w => (dats m 0 c).arrAt w (cfgs 0).N) (Proc.devRef .tc main_v0_2)
      = arr3 (dist2 (V m c main_arg0) (V m c main_arg1)) :=
    (Pipeline.withArrays_arr spec0 launch0.win.arr_inj c _ _ 4).trans (final4 m c)
  rw [h2, h3, h4]
  rfl

/-- The run of the idealized kernel's program, read: the returned buffer is the stack of the three functions of the
    argument arrays, and the argument arrays end as launched. -/
theorem run : θ_run defs (onTc (τ := τ) (main (F := Ideal))) ⟨m, fun _ => 0, ρ⟩ fun r => ∀ c : Dev nD,
      r.2.mem ((c.tc : Thread nD τ).loc main_v4)
        = concatenate S4x512x512x3 3
          [⟨S4x512x512x1, broadcastInDim S4x512x512x1 ![0, 1, 2] bcast_S4x512x512_S4x512x512x1_0_1_2 (arr3 (cosMul (m ((c.tc : Thread nD τ).loc main_arg0)) (m ((c.tc : Thread nD τ).loc main_arg1))))⟩,
           ⟨S4x512x512x1, broadcastInDim S4x512x512x1 ![0, 1, 2] bcast_S4x512x512_S4x512x512x1_0_1_2 (arr3 (dist1 (m ((c.tc : Thread nD τ).loc main_arg0)) (m ((c.tc : Thread nD τ).loc main_arg1))))⟩,
           ⟨S4x512x512x1, broadcastInDim S4x512x512x1 ![0, 1, 2] bcast_S4x512x512_S4x512x512x1_0_1_2 (arr3 (dist2 (m ((c.tc : Thread nD τ).loc main_arg0)) (m ((c.tc : Thread nD τ).loc main_arg1))))⟩]
          concatenates_S4x512x512x1_S4x512x512x1_S4x512x512x1_S4x512x512x3_d3
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩) (run_main m ρ)

end Cert.KernelIdeal.HandValue

end
-- ==== Proof.RefValue.lean ====
/-
  The reference program's three results, read at an output index `(b, n, j)`, are the specification's cosine
  (each row divided by the square root of its squared norm), L1 distance and L2 distance of query row `x0[b, n, ·]`
  and reference row `x1[j, ·]`.

  Each result is read one operation at a time: a broadcast reads its operand at the index with the added axes dropped,
  a float sum over the last axis is the initial value `0` plus the sum over that axis, and the `dot_general` is the sum
  over the contracted axis of the products. After the reads both sides are the same sum, term by term.
-/
import proofs.«134703_j11759620456454_1_alg».proof.Proof.Gen.ReferenceIdeal.Read
import proofs.«134703_j11759620456454_1_alg».proof.Proof.Spec
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Read Cert.Spec Idealize.ShloMosaic Idealize.ShloMosaic.ValueIdx

variable [Cert.ReferenceIdeal.Facts]

/-! ## The squared norms and their square roots -/

/-- The square root of the squared norm of query row `(b, n)`, broadcast along the row. -/
theorem normX_at (x0 : (⟨S4x512x128, .f32⟩ : BufTy).Contents (Elt Ideal)) (b : Fin 4) (n : Fin 512) (k : Fin 128) :
    val_main_v1 (F := Ideal) x0 (ix3 b n k) = Ideal.sqrt (sqX x0 b n) := by
  rw [val_main_v1_apply, val_main_v0_apply, val_main_call0_v2_apply, val_main_call0_v1_apply, val_main_call0_cst_apply,
    Ideal.hostUnary_sqrt_def, Ideal.ofBits_def, Ideal.ofBits_zero_f32, zero_add]
  unfold sqX
  refine congrArg Ideal.sqrt (Finset.sum_congr rfl fun d _ => ?_)
  rw [val_main_call0_v0_apply, Ideal.mulf_def]
  have e : idx_main_call0_v1 (idx_main_call0_v2 (idx_main_v1 (ix3 b n k))) d = ix3 b n d :=
    funext fun a => Fin.ext (by match a with | ⟨0, _⟩ => rfl | ⟨1, _⟩ => rfl | ⟨2, _⟩ => rfl)
  rw [e]

/-- The square root of the squared norm of reference row `j`, broadcast along the row. -/
theorem normY_at (x1 : (⟨S512x128, .f32⟩ : BufTy).Contents (Elt Ideal)) (j : Fin 512) (k : Fin 128) :
    val_main_v4 (F := Ideal) x1 (ix2 j k) = Ideal.sqrt (sqY x1 j) := by
  rw [val_main_v4_apply, val_main_v3_apply, val_main_call1_v2_apply, val_main_call1_v1_apply, val_main_call1_cst_apply,
    Ideal.hostUnary_sqrt_def, Ideal.ofBits_def, Ideal.ofBits_zero_f32, zero_add]
  unfold sqY
  refine congrArg Ideal.sqrt (Finset.sum_congr rfl fun d _ => ?_)
  rw [val_main_call1_v0_apply, Ideal.mulf_def]
  have e : idx_main_call1_v1 (idx_main_call1_v2 (idx_main_v4 (ix2 j k))) d = ix2 j d :=
    funext fun a => Fin.ext (by match a with | ⟨0, _⟩ => rfl | ⟨1, _⟩ => rfl)
  rw [e]

/-! ## The cosine -/

theorem ref_cos (x0 : (⟨S4x512x128, .f32⟩ : BufTy).Contents (Elt Ideal)) (x1 : (⟨S512x128, .f32⟩ : BufTy).Contents (Elt Ideal)) :
    val_main_v6 (F := Ideal) x0 x1 = arr3 (cosDiv x0 x1) := by
  funext i
  obtain ⟨b, n, j, rfl⟩ : ∃ (b : Fin 4) (n : Fin 512) (j : Fin 512), i = ix3 b n j := ⟨i 0, i 1, i 2, eq_ix3 i⟩
  rw [arr3_apply, val_main_v6_apply]
  unfold cosDiv
  refine Finset.sum_congr rfl fun k _ => ?_
  have el : lidx_main_v6 (ix3 b n j) k = ix3 b n k :=
    funext fun a => Fin.ext (by match a with | ⟨0, _⟩ => rfl | ⟨1, _⟩ => rfl | ⟨2, _⟩ => rfl)
  have er : ridx_main_v6 (ix3 b n j) k = ix2 j k :=
    funext fun a => Fin.ext (by match a with | ⟨0, _⟩ => rfl | ⟨1, _⟩ => rfl)
  rw [el, er, val_main_v2_apply, val_main_v5_apply, normX_at, normY_at, Ideal.hostDivf_def, Ideal.hostDivf_def]

/-! ## The difference of the two rows, and the two distances -/

/-- The broadcast difference at `(b, n, j, d)` is `x0[b, n, d] - x1[j, d]`. -/
theorem diff_at (x0 : (⟨S4x512x128, .f32⟩ : BufTy).Contents (Elt Ideal)) (x1 : (⟨S512x128, .f32⟩ : BufTy).Contents (Elt Ideal))
    (b : Fin 4) (n j : Fin 512) (d : Fin 128) :
    val_main_v11 (F := Ideal) x0 x1 (ix4 b n j d) = x0 (ix3 b n d) - x1 (ix2 j d) := by
  rw [val_main_v11_apply, val_main_v9_apply, val_main_v7_apply, val_main_v10_apply, val_main_v8_apply, Ideal.subf_def]
  have e0 : idx_main_v7 (idx_main_v9 (ix4 b n j d)) = ix3 b n d :=
    funext fun a => Fin.ext (by match a with | ⟨0, _⟩ => rfl | ⟨1, _⟩ => rfl | ⟨2, _⟩ => rfl)
  have e1 : idx_main_v8 (idx_main_v10 (ix4 b n j d)) = ix2 j d :=
    funext fun a => Fin.ext (by match a with | ⟨0, _⟩ => rfl | ⟨1, _⟩ => rfl)
  rw [e0, e1]

theorem ref_l1 (x0 : (⟨S4x512x128, .f32⟩ : BufTy).Contents (Elt Ideal)) (x1 : (⟨S512x128, .f32⟩ : BufTy).Contents (Elt Ideal)) :
    val_main_v13 (F := Ideal) x0 x1 = arr3 (dist1 x0 x1) := by
  funext i
  obtain ⟨b, n, j, rfl⟩ : ∃ (b : Fin 4) (n : Fin 512) (j : Fin 512), i = ix3 b n j := ⟨i 0, i 1, i 2, eq_ix3 i⟩
  rw [arr3_apply, val_main_v13_apply, val_main_cst_apply, Ideal.ofBits_def, Ideal.ofBits_zero_f32, zero_add]
  unfold dist1
  refine Finset.sum_congr rfl fun d _ => ?_
  have e : idx_main_v13 (ix3 b n j) d = ix4 b n j d :=
    funext fun a => Fin.ext (by match a with | ⟨0, _⟩ => rfl | ⟨1, _⟩ => rfl | ⟨2, _⟩ => rfl | ⟨3, _⟩ => rfl)
  rw [e, val_main_v12_apply, diff_at, Ideal.hostAbsf_def, Ideal.absf_def]

theorem ref_l2 (x0 : (⟨S4x512x128, .f32⟩ : BufTy).Contents (Elt Ideal)) (x1 : (⟨S512x128, .f32⟩ : BufTy).Contents (Elt Ideal)) :
    val_main_v16 (F := Ideal) x0 x1 = arr3 (dist2 x0 x1) := by
  funext i
  obtain ⟨b, n, j, rfl⟩ : ∃ (b : Fin 4) (n : Fin 512) (j : Fin 512), i = ix3 b n j := ⟨i 0, i 1, i 2, eq_ix3 i⟩
  rw [arr3_apply, val_main_v16_apply, val_main_v15_apply, val_main_cst_0_apply, Ideal.hostUnary_sqrt_def, Ideal.ofBits_def,
    Ideal.ofBits_zero_f32, zero_add]
  unfold dist2
  refine congrArg Ideal.sqrt (Finset.sum_congr rfl fun d _ => ?_)
  have e : idx_main_v15 (ix3 b n j) d = ix4 b n j d :=
    funext fun a => Fin.ext (by match a with | ⟨0, _⟩ => rfl | ⟨1, _⟩ => rfl | ⟨2, _⟩ => rfl | ⟨3, _⟩ => rfl)
  rw [e, val_main_v14_apply, diff_at, Ideal.mulf_def]

end Cert.ReferenceIdeal.RefValue

end
-- ==== Proof.PreDecode.lean ====
/-
  The precondition read back at the extended reals.

  The precondition is the conjunction of four "for every index" statements: every entry of `x` and of `y` is
  finite in absolute value, every query row `x[b, n, ·]` has a positive squared norm, and every reference row
  `y[j, ·]` has a positive squared norm. Each "for every index" is a reduction by `and` of an array of one-bit
  comparisons into a single bit; the whole is 1 exactly when every one of those bits is 1. A bit of the third array is
  the comparison `0 < 0 + Σ_d x[b, n, d] · x[b, n, d]`, and a bit of the fourth is `0 < 0 + Σ_d y[j, d] · y[j, d]`:
  these are the two positivity facts the cosine's two spellings need to agree.
-/
import proofs.«134703_j11759620456454_1_alg».proof.Pre_finite_inputs
import proofs.«134703_j11759620456454_1_alg».proof.Proof.Spec
import Idealize.ShloMosaic.Lib.ReduceAll
import Idealize.ShloMosaic.Lib.ValueIdx
import Idealize.ShloMosaic.PureOps.Ideal.Laws

noncomputable section

open scoped BigOperators

namespace Cert.PreDecode

open Idealize.ShloMosaic Idealize.ShloMosaic.ValueIdx
open Cert.Pre_finite_inputs Cert.Pre_finite_inputs.Facts

/-- The scalar shape has one index. -/
instance : Subsingleton S_.Idx := ⟨fun a b => funext fun d => d.elim0⟩

/-- A one-bit word made from a truth value is 1 exactly when the truth value is true. -/
theorem ofBool_eq_one {c : Bool} : BitVec.ofBool c = 1#1 ↔ c = true := by cases c <;> decide

/-- A "greater than" comparison bit that is 1 says its right operand is strictly below its left one. -/
theorem lt_of_cmp_ogt {a b : EReal} (h : Ideal.cmp .ogt a b = 1#1) : b < a := by
  unfold Ideal.cmp at h
  exact of_decide_eq_true (ofBool_eq_one.1 h)

/-- The scalar 0 broadcast to any shape reads 0 at every index. -/
theorem bcast_zero {t : Shape} (dims : Fin S_.rank → Fin t.rank) (hb : S_.BroadcastsInDim t dims) (j : t.Idx) :
    broadcastInDim t dims hb (constant (F := Ideal) S_ .f32 0x00000000#32) j = (0 : EReal) := by
  show Ideal.ofBits .f32 0x00000000#32 = 0
  exact Ideal.ofBits_zero_f32

/-- The sum over the last axis of the squares of `x`, from 0, at row `(b, n)` is that row's squared norm. -/
theorem rowX [Facts] (x0 : Cert.Spec.SX.Idx → EReal) (b : Fin 4) (n : Fin 512) :
    Host.reduceAdd (F := Ideal) (mulf (F := Ideal) (s := S4x512x128) (φ := .f32) x0 x0)
        (constant (F := Ideal) S_ .f32 0x00000000#32) reducesTo_S4x512x128_S4x512_d2 h_S_ (ix2 b n)
      = Cert.Spec.sqX x0 b n := by
  simp only [Host.reduceAdd, Ideal.hostReduceAdd_def]
  rw [Ideal.hostReduceAdd_single reducesTo_S4x512x128_S4x512_d2 (by decide)]
  rw [constant_apply, Ideal.ofBits_zero_f32, zero_add]
  unfold Cert.Spec.sqX
  refine Finset.sum_congr rfl fun d _ => ?_
  rw [mulf_apply]
  refine congrArg (fun i => x0 i * x0 i) (funext fun a => Fin.ext ?_)
  match a with | ⟨0, _⟩ => rfl | ⟨1, _⟩ => rfl | ⟨2, _⟩ => rfl

/-- The sum over the last axis of the squares of `y`, from 0, at row `j` is that row's squared norm. -/
theorem rowY [Facts] (x1 : Cert.Spec.SY.Idx → EReal) (j : Fin 512) :
    Host.reduceAdd (F := Ideal) (mulf (F := Ideal) (s := S512x128) (φ := .f32) x1 x1)
        (constant (F := Ideal) S_ .f32 0x00000000#32) reducesTo_S512x128_S512_d1 h_S_ (ix1 j)
      = Cert.Spec.sqY x1 j := by
  simp only [Host.reduceAdd, Ideal.hostReduceAdd_def]
  rw [Ideal.hostReduceAdd_single reducesTo_S512x128_S512_d1 (by decide)]
  rw [constant_apply, Ideal.ofBits_zero_f32, zero_add]
  unfold Cert.Spec.sqY
  refine Finset.sum_congr rfl fun d _ => ?_
  rw [mulf_apply]
  refine congrArg (fun i => x1 i * x1 i) (funext fun a => Fin.ext ?_)
  match a with | ⟨0, _⟩ => rfl | ⟨1, _⟩ => rfl

/-- Where the precondition holds every query row and every reference row has a positive squared norm. -/
theorem sq_pos_of_pre [Cert.Pre_finite_inputs.Facts] (x0 : Cert.Spec.SX.Idx → EReal) (x1 : Cert.Spec.SY.Idx → EReal)
    (h : Cert.Pre_finite_inputs.fn (F := Ideal) x0 x1 = fun _ => 1#1) :
    (∀ b n, 0 < Cert.Spec.sqX x0 b n) ∧ (∀ j, 0 < Cert.Spec.sqY x1 j) := by
  have h0 := congrFun h ValueIdx.ix0
  dsimp only [Cert.Pre_finite_inputs.fn, Cert.Pre_finite_inputs.fn_part1] at h0
  obtain ⟨h01, hY⟩ := IntOp.andi_eq_one.1 h0
  obtain ⟨_, hX⟩ := IntOp.andi_eq_one.1 h01
  refine ⟨fun b n => ?_, fun j => ?_⟩
  · have e := Host.reduce_andi_all _ _ reducesTo_S4x512_S_d0_1 h_S_ ValueIdx.ix0 hX (ix2 b n)
    rw [cmpf_apply, Ideal.cmpf_def] at e
    have e' := lt_of_cmp_ogt e
    rw [rowX, bcast_zero] at e'
    exact e'
  · have e := Host.reduce_andi_all _ _ reducesTo_S512_S_d0 h_S_ ValueIdx.ix0 hY (ix1 j)
    rw [cmpf_apply, Ideal.cmpf_def] at e
    have e' := lt_of_cmp_ogt e
    rw [rowY, bcast_zero] at e'
    exact e'

end Cert.PreDecode

end
-- ==== Proof.lean ====
/-
  The certificate of the pairwise-distance kernel: for queries `x : [4, 512, 128]` and a reference set `y : [512, 128]`, the
  kernel and the reference both return, for every query row `x[b, n, ·]` and reference row `y[j, ·]`, the cosine similarity,
  the L1 distance and the L2 distance, stacked on a last axis of extent 3.

  The precondition asks, beyond finite entries, that every row of `x` and of `y` has a positive squared norm: on an
  all-zero row the reference divides zero by zero. Under it the two programs agree on the extended reals. The L1 and L2
  distances are the same sums on both sides. For the cosine the kernel scales each row by the reciprocal square root of its
  squared norm and the reference divides each row by the square root of its squared norm; for a positive squared norm these
  are the same number, entry by entry, so the two sums of products are equal term by term.

  The three frames: the kernel's program (at the word level and idealized) runs its region over the 64 grid points and then
  its four host lines, leaving the argument arrays untouched; the reference is a straight line of host operations.
  The idealization rewrote nothing, so there is nothing to preserve.
-/
import proofs.«134703_j11759620456454_1_alg».proof.Defs
import proofs.«134703_j11759620456454_1_alg».proof.Proof.Gen.Kernel
import proofs.«134703_j11759620456454_1_alg».proof.Proof.Gen.KernelIdeal
import proofs.«134703_j11759620456454_1_alg».proof.Proof.Gen.ReferenceIdeal
import proofs.«134703_j11759620456454_1_alg».proof.Proof.Gen.Pre_finite_inputs
import proofs.«134703_j11759620456454_1_alg».proof.Proof.Gen.ReferenceIdeal.Run
import proofs.«134703_j11759620456454_1_alg».proof.Proof.Gen.ReferenceIdeal.Read
import proofs.«134703_j11759620456454_1_alg».proof.Proof.KernelFrame
import proofs.«134703_j11759620456454_1_alg».proof.Proof.KernelIdealFrame
import proofs.«134703_j11759620456454_1_alg».proof.Proof.KernelValue
import proofs.«134703_j11759620456454_1_alg».proof.Proof.RefValue
import proofs.«134703_j11759620456454_1_alg».proof.Proof.PreDecode
import proofs.«134703_j11759620456454_1_alg».proof.Proof.Spec
import Idealize.ShloMosaic.Adequacy
import Idealize.ShloMosaic.Init

noncomputable section

namespace Cert.Proof

open Idealize.ShloMosaic Idealize.ShloMosaic.TcCoe Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

/-- The reference's returned buffer, from its run: the stack of the divided cosine and the two distances. -/
theorem ref_result (x0 : (⟨Cert.ReferenceIdeal.S4x512x128, .f32⟩ : BufTy).Contents (Elt Ideal))
    (x1 : (⟨Cert.ReferenceIdeal.S512x128, .f32⟩ : BufTy).Contents (Elt Ideal)) :
    Cert.ReferenceIdeal.Read.val_main_v20 (F := Ideal) x0 x1
      = concatenate Cert.ReferenceIdeal.S4x512x512x3 3
          [⟨Cert.ReferenceIdeal.S4x512x512x1, broadcastInDim Cert.ReferenceIdeal.S4x512x512x1 ![0, 1, 2] Cert.ReferenceIdeal.Facts₀.bcast_S4x512x512_S4x512x512x1_0_1_2 (Cert.Spec.arr3 (Cert.Spec.cosDiv x0 x1))⟩,
           ⟨Cert.ReferenceIdeal.S4x512x512x1, broadcastInDim Cert.ReferenceIdeal.S4x512x512x1 ![0, 1, 2] Cert.ReferenceIdeal.Facts₀.bcast_S4x512x512_S4x512x512x1_0_1_2 (Cert.Spec.arr3 (Cert.Spec.dist1 x0 x1))⟩,
           ⟨Cert.ReferenceIdeal.S4x512x512x1, broadcastInDim Cert.ReferenceIdeal.S4x512x512x1 ![0, 1, 2] Cert.ReferenceIdeal.Facts₀.bcast_S4x512x512_S4x512x512x1_0_1_2 (Cert.Spec.arr3 (Cert.Spec.dist2 x0 x1))⟩]
          Cert.ReferenceIdeal.Facts₀.concatenates_S4x512x512x1_S4x512x512x1_S4x512x512x1_S4x512x512x3_d3 := by
  unfold Cert.ReferenceIdeal.Read.val_main_v20 Cert.ReferenceIdeal.Read.val_main_v17 Cert.ReferenceIdeal.Read.val_main_v18
    Cert.ReferenceIdeal.Read.val_main_v19
  rw [Cert.ReferenceIdeal.RefValue.ref_cos, Cert.ReferenceIdeal.RefValue.ref_l1, Cert.ReferenceIdeal.RefValue.ref_l2]

/-- Both idealized programs, from memories that agree on the two arguments, return the same stack: the distances are the
    same functions, and the cosine's two spellings agree because the precondition makes every squared norm positive. -/
theorem algebraic : Cert.algebraic_KernelIdeal_ReferenceIdeal := by
  intro m ρ m' ρ' hpre hagree
  refine ⟨_, Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hy⟩ := Cert.PreDecode.sq_pos_of_pre _ _ (hpre c)
  rw [Cert.ReferenceIdeal.Read.val_main_v20_eq, ref_result, (hagree c).1, (hagree c).2,
    ← Cert.Spec.cosMul_eq_cosDiv _ _ hx hy]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
